-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S100000x512 : Shape := ⟨2, ![100000, 512]⟩
abbrev S100000x2 : Shape := ⟨2, ![100000, 2]⟩
abbrev S512x1536 : Shape := ⟨2, ![512, 1536]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S100000x2 : S_.BroadcastsInDim S100000x2 (![] : Fin 0 → Fin S100000x2.rank)
  reducesTo_S100000x2_S_d0_1 : S100000x2.ReducesTo [0, 1] S_

variable [Facts]

def fn_part4 {F : FTy → Type} [FloatOps F] (main_arg2 : IVec S100000x2 32) (main_v63 : IVec S_ 1) (main_v67 : IVec S_ 1) : IVec S_ 1 :=
  let main_v68 : IVec S_ 1 := andi main_v63 main_v67
  let main_c_26 : IVec S_ 32 := constantI S_ 32 0#32
  let main_v69 : IVec S100000x2 32 := broadcastInDim S100000x2 ![] bcast_S_S100000x2 main_c_26
  let main_v70 : IVec S100000x2 1 := cmpi .sge main_arg2 main_v69
  let main_c_27 : IVec S_ 32 := constantI S_ 32 20000#32
  let main_v71 : IVec S100000x2 32 := broadcastInDim S100000x2 ![] bcast_S_S100000x2 main_c_27
  let main_v72 : IVec S100000x2 1 := cmpi .slt main_arg2 main_v71
  let main_v73 : IVec S100000x2 1 := andi main_v70 main_v72
  let main_c_28 : IVec S_ 1 := constantI S_ 1 1#1
  let main_v74 : IVec S_ 1 := (fun x v => Host.reduce IntOp.andi x v reducesTo_S100000x2_S_d0_1 h_S_) main_v73 main_c_28
  let main_v75 : IVec S_ 1 := andi main_v68 main_v74
  main_v75

def fn_part3 {F : FTy → Type} [FloatOps F] (main_arg2 : IVec S100000x2 32) (main_arg12 : FVec F S512 .f32) (main_arg13 : FVec F S512x512 .f32) (main_arg14 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg13
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg2 main_v63 main_v67

def fn_part2 {F : FTy → Type} [FloatOps F] (main_arg2 : IVec S100000x2 32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg11
  let main_cst_18 : FVec F S_ .f32 := constant S_ .f32 0x7F800000#32
  let main_v50 : FVec F S512x512 .f32 := broadcastInDim S512x512 ![] bcast_S_S512x512 main_cst_18
  fn_part3 (F := F) main_arg2 main_arg12 main_arg13 main_arg14 main_v48 main_v49 main_v50

def fn_part1 {F : FTy → Type} [FloatOps F] (main_arg2 : IVec S100000x2 32) (main_arg5 : FVec F S1536x512 .f32) (main_arg6 : FVec F S1536 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1536x512 .f32 := Host.absf main_arg5
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  let main_v24 : FVec F S1536 .f32 := Host.absf main_arg6
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S20000x512 .f32) (main_arg1 : FVec F S100000x512 .f32) (main_arg2 : IVec S100000x2 32) (main_arg3 : FVec F S512x1536 .f32) (main_arg4 : FVec F S512 .f32) (main_arg5 : FVec F S1536x512 .f32) (main_arg6 : FVec F S1536 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x1536 .f32 := Host.absf main_arg3
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  let main_c_3 : IVec S_ 1 := constantI S_ 1 1#1
  let main_v12 : IVec S_ 1 := (fun x v => Host.reduce IntOp.andi x v reducesTo_S512x1536_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S20000x512 : Shape := ⟨2, ![20000, 512]⟩
abbrev S100000x512 : Shape := ⟨2, ![100000, 512]⟩
abbrev S100000x2 : Shape := ⟨2, ![100000, 2]⟩
abbrev S512x1536 : Shape := ⟨2, ![512, 1536]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S100000x1 : Shape := ⟨2, ![100000, 1]⟩
abbrev S100000 : Shape := ⟨1, ![100000]⟩
abbrev S_ : Shape := ⟨0, ![]⟩
abbrev S1 : Shape := ⟨1, ![1]⟩
abbrev S1x1 : Shape := ⟨2, ![1, 1]⟩
abbrev S1x512 : Shape := ⟨2, ![1, 512]⟩
abbrev S1000x512 : Shape := ⟨2, ![1000, 512]⟩
abbrev S20000 : Shape := ⟨1, ![20000]⟩
abbrev S20000x1 : Shape := ⟨2, ![20000, 1]⟩

abbrev nBuf : Space → Nat
  | .hbm => 134
  | .vmem => 36
  | .smem => 0
  | _ => 0

abbrev hbmTy0_0 (i : Nat) : BufTy := match i % 128 with
  | 0 => ⟨S20000x512, .f32⟩
  | 1 => ⟨S100000x512, .f32⟩
  | 2 => ⟨S100000x2, .i32⟩
  | 3 => ⟨S512x1536, .f32⟩
  | 4 => ⟨S512, .f32⟩
  | 5 => ⟨S1536x512, .f32⟩
  | 6 => ⟨S1536, .f32⟩
  | 7 => ⟨S512x512, .f32⟩
  | 8 => ⟨S512, .f32⟩
  | 9 => ⟨S512x512, .f32⟩
  | 10 => ⟨S512, .f32⟩
  | 11 => ⟨S512x512, .f32⟩
  | 12 => ⟨S512, .f32⟩
  | 13 => ⟨S512x512, .f32⟩
  | 14 => ⟨S512, .f32⟩
  | 15 => ⟨S100000x1, .i32⟩
  | 16 => ⟨S100000, .i32⟩
  | 17 => ⟨S100000x1, .i32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S1, .i32⟩
  | 28 => ⟨S_, .i32⟩
  | 29 => ⟨S100000x1, .i32⟩
  | 30 => ⟨S100000x1, .i1⟩
  | 31 => ⟨S1x1, .i32⟩
  | 32 => ⟨S100000x1, .i32⟩
  | 33 => ⟨S100000x1, .i1⟩
  | 34 => ⟨S100000x1, .i1⟩
  | 35 => ⟨S_, .i1⟩
  | 36 => ⟨S100000, .i1⟩
  | 37 => ⟨S100000x512, .f32⟩
  | 38 => ⟨S100000x512, .i1⟩
  | 39 => ⟨S_, .f32⟩
  | 40 => ⟨S100000x512, .f32⟩
  | 41 => ⟨S100000x512, .f32⟩
  | 42 => ⟨S100000x512, .bf16⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S1, .i32⟩
  | 52 => ⟨S_, .i32⟩
  | 53 => ⟨S100000x1, .i32⟩
  | 54 => ⟨S100000x1, .i1⟩
  | 55 => ⟨S1x1, .i32⟩
  | 56 => ⟨S100000x1, .i32⟩
  | 57 => ⟨S100000x1, .i1⟩
  | 58 => ⟨S100000x1, .i1⟩
  | 59 => ⟨S_, .i1⟩
  | 60 => ⟨S100000, .i1⟩
  | 61 => ⟨S100000x512, .f32⟩
  | 62 => ⟨S100000x512, .i1⟩
  | 63 => ⟨S_, .f32⟩
  | 64 => ⟨S100000x512, .f32⟩
  | 65 => ⟨S100000x512, .f32⟩
  | 66 => ⟨S100000x512, .bf16⟩
  | 67 => ⟨S512x512, .f32⟩
  | 68 => ⟨S512x512, .f32⟩
  | 69 => ⟨S512x512, .bf16⟩
  | 70 => ⟨S512x512, .f32⟩
  | 71 => ⟨S512x512, .f32⟩
  | 72 => ⟨S512x512, .bf16⟩
  | 73 => ⟨S512x512, .f32⟩
  | 74 => ⟨S512x512, .f32⟩
  | 75 => ⟨S512x512, .bf16⟩
  | 76 => ⟨S1x512, .f32⟩
  | 77 => ⟨S512x512, .f32⟩
  | 78 => ⟨S512x512, .f32⟩
  | 79 => ⟨S512x512, .f32⟩
  | 80 => ⟨S512x512, .f32⟩
  | 81 => ⟨S512x512, .bf16⟩
  | 82 => ⟨S512x512, .f32⟩
  | 83 => ⟨S512x512, .bf16⟩
  | 84 => ⟨S512x512, .f32⟩
  | 85 => ⟨S512x512, .bf16⟩
  | 86 => ⟨S512, .f32⟩
  | 87 => ⟨S1x512, .f32⟩
  | 88 => ⟨S512, .f32⟩
  | 89 => ⟨S1x512, .f32⟩
  | 90 => ⟨S512, .f32⟩
  | 91 => ⟨S1x512, .f32⟩
  | 92 => ⟨S512x512, .f32⟩
  | 93 => ⟨S512x512, .bf16⟩
  | 94 => ⟨S1x512, .f32⟩
  | 95 => ⟨S100000x512, .f32⟩
  | 96 => ⟨S100000x512, .f32⟩
  | 97 => ⟨S100000x512, .f32⟩
  | 98 => ⟨S_, .f32⟩
  | 99 => ⟨S20000x512, .f32⟩
  | 100 => ⟨S100000x1, .i32⟩
  | 101 => ⟨S20000x512, .f32⟩
  | 102 => ⟨S_, .f32⟩
  | 103 => ⟨S20000x512, .f32⟩
  | 104 => ⟨S100000x1, .i32⟩
  | 105 => ⟨S20000x512, .f32⟩
  | 106 => ⟨S20000x512, .f32⟩
  | 107 => ⟨S_, .f32⟩
  | 108 => ⟨S100000, .f32⟩
  | 109 => ⟨S_, .f32⟩
  | 110 => ⟨S20000, .f32⟩
  | 111 => ⟨S100000x1, .i32⟩
  | 112 => ⟨S20000, .f32⟩
  | 113 => ⟨S_, .f32⟩
  | 114 => ⟨S20000, .f32⟩
  | 115 => ⟨S100000x1, .i32⟩
  | 116 => ⟨S20000, .f32⟩
  | 117 => ⟨S20000, .f32⟩
  | 118 => ⟨S_, .f32⟩
  | 119 => ⟨S20000, .f32⟩
  | 120 => ⟨S20000, .f32⟩
  | 121 => ⟨S20000x1, .f32⟩
  | 122 => ⟨S20000x512, .f32⟩
  | 123 => ⟨S20000x512, .f32⟩
  | 124 => ⟨S512x512, .f32⟩
  | 125 => ⟨S512x512, .bf16⟩
  | 126 => ⟨S1x512, .f32⟩
  | 127 => ⟨S512x512, .f32⟩
  | _ => ⟨S20000x512, .f32⟩

abbrev hbmTy0_1 (i : Nat) : BufTy := match i % 128 with
  | 0 => ⟨S512x512, .bf16⟩
  | 1 => ⟨S1x512, .f32⟩
  | 2 => ⟨S512x512, .f32⟩
  | 3 => ⟨S512x512, .bf16⟩
  | 4 => ⟨S1x512, .f32⟩
  | 5 => ⟨S20000x512, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | .local _ .vmem, ⟨0, _⟩ => ⟨S1000x512, .bf16⟩
  | .local _ .vmem, ⟨1, _⟩ => ⟨S1000x512, .bf16⟩
  | .local _ .vmem, ⟨2, _⟩ => ⟨S1000x512, .f32⟩
  | .local _ .vmem, ⟨3, _⟩ => ⟨S1000x512, .f32⟩
  | .local _ .vmem, ⟨4, _⟩ => ⟨S1000x512, .bf16⟩
  | .local _ .vmem, ⟨5, _⟩ => ⟨S1000x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S1x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S1000x512, .f32⟩
  | .local _ .vmem, ⟨25, _⟩ => ⟨S1000x512, .f32⟩
  | .local _ .vmem, ⟨26, _⟩ => ⟨S1000x512, .f32⟩
  | .local _ .vmem, ⟨27, _⟩ => ⟨S1000x512, .f32⟩
  | .local _ .vmem, ⟨28, _⟩ => ⟨S512x512, .bf16⟩
  | .local _ .vmem, ⟨29, _⟩ => ⟨S1x512, .f32⟩
  | .local _ .vmem, ⟨30, _⟩ => ⟨S512x512, .bf16⟩
  | .local _ .vmem, ⟨31, _⟩ => ⟨S1x512, .f32⟩
  | .local _ .vmem, ⟨32, _⟩ => ⟨S512x512, .bf16⟩
  | .local _ .vmem, ⟨33, _⟩ => ⟨S1x512, .f32⟩
  | .local _ .vmem, ⟨34, _⟩ => ⟨S1000x512, .f32⟩
  | .local _ .vmem, ⟨35, _⟩ => ⟨S1000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36_0 : Ref sig .tc := ⟨.hbm, 95, rfl⟩
abbrev main_v36_1 : Ref sig .tc := ⟨.hbm, 96, rfl⟩
abbrev main_v36_2 : Ref sig .tc := ⟨.hbm, 97, rfl⟩
abbrev main_cst : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_0 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_cst_1 : Ref sig .tc := ⟨.hbm, 107, rfl⟩
abbrev main_v44 : Ref sig .tc := ⟨.hbm, 108, rfl⟩
abbrev main_cst_2 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_3 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_cst_4 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1000x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1000x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1000x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x512_0 : S100000.BroadcastsInDim S100000x512 (![0] : Fin 1 → Fin S100000x512.rank)
  bcast_S_S100000x512 : S_.BroadcastsInDim S100000x512 (![] : Fin 0 → Fin S100000x512.rank)
  bitsLt_bf16_f32 : FTy.bits .bf16 < FTy.bits .f32
  slices_S512x1536_S512x512_0_0 : S512x1536.Slices ![0, 0] S512x512
  transposes_S512x512_S512x512_1_0 : S512x512.Transposes [1, 0] S512x512
  slices_S512x1536_S512x512_0_512 : S512x1536.Slices ![0, 512] S512x512
  slices_S512x1536_S512x512_0_1024 : S512x1536.Slices ![0, 1024] S512x512
  shapeCasts_S512_S1x512 : S512.ShapeCasts S1x512
  slices_S1536x512_S512x512_0_0 : S1536x512.Slices ![0, 0] S512x512
  slices_S1536x512_S512x512_512_0 : S1536x512.Slices ![512, 0] S512x512
  slices_S1536x512_S512x512_1024_0 : S1536x512.Slices ![1024, 0] S512x512
  slices_S1536_S512_0 : S1536.Slices ![0] S512
  slices_S1536_S512_512 : S1536.Slices ![512] S512
  slices_S1536_S512_1024 : S1536.Slices ![1024] S512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  gather_S20000x512_S100000x1_S100000x512_1_0_n_n_0_1_1512_wf : GatherDims.WF S20000x512 S100000x1 S100000x512 [1] [0] [] [0] [] 1 ![1, 512]
  dot_S1000x512_S512x512_S1000x512_1_0_0_1_n_n_wf : DotDims.WF S1000x512 S512x512 S1000x512 [1] [0] [0] [1] [] []
  scatter_S20000x512_S100000x1_S100000x512_1_0_0_1_wf : ScatterDims.WF S20000x512 S100000x1 S100000x512 [1] [0] [0] 1
  scatter_S20000_S100000x1_S100000_n_0_0_1_wf : ScatterDims.WF S20000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .bf16 = 32 ∨ (Rect.block (s := S100000x512) S1000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S100000x512.size a
  hwx0_2 : ∀ i : grid0.Coords, EltTy.bits .bf16 = 32 ∨ (Rect.block (s := S100000x512) S1000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x512.size a ≤ S100000x512.size a
  hwx0_15 : ∀ i : grid0.Coords, EltTy.bits .f32 = 32 ∨ (Rect.block (s := S100000x512) S1000x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1000x512.size a ≤ S100000x512.size a
  hwx0_16 : ∀ i : grid0.Coords, EltTy.bits .f32 = 32 ∨ (Rect.block (s := S100000x512) S1000x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x512.size a ≤ S100000x512.size a
  hwx0_17 : ∀ i : grid0.Coords, EltTy.bits .f32 = 32 ∨ (Rect.block (s := S100000x512) S1000x512.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S20000x512.size a
  hwx1_1 : ∀ i : grid1.Coords, EltTy.bits .f32 = 32 ∨ (Rect.block (s := S20000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x512.size a ≤ S20000x512.size a
  hwx1_8 : ∀ i : grid1.Coords, EltTy.bits .f32 = 32 ∨ (Rect.block (s := S20000x512) S1000x512.size (cc1_transform_8 i) (hinb1_8 i)).WholeWords (EltTy.packing .f32)

variable [Facts₀]

def gather_S20000x512_S100000x1_S100000x512_1_0_n_n_0_1_1512 : GatherDims S20000x512 S100000x1 S100000x512 where
  offsetDims := [1]
  collapsedSliceDims := [0]
  operandBatchingDims := []
  startIndicesBatchingDims := []
  startIndexMap := [0]
  indexVectorDim := 1
  sliceSizes := ![1, 512]
  wf := gather_S20000x512_S100000x1_S100000x512_1_0_n_n_0_1_1512_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S20000x512_S100000x1_S100000x512_1_0_0_1 : ScatterDims S20000x512 S100000x1 S100000x512 where
  updateWindowDims := [1]
  insertedWindowDims := [0]
  scatterDimsToOperandDims := [0]
  indexVectorDim := 1
  wf := scatter_S20000x512_S100000x1_S100000x512_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf

abbrev win0_0 : Pipeline.Window sig grid0 :=
  Pipeline.Window.ofSpec (Memref.whole main_v5) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v35) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v36_0) S1000x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v36_1) S1000x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v36_2) S1000x512.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v56) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v65) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v66) S1000x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S20000x512 : Shape := ⟨2, ![20000, 512]⟩
abbrev S100000x512 : Shape := ⟨2, ![100000, 512]⟩
abbrev S100000x2 : Shape := ⟨2, ![100000, 2]⟩
abbrev S512x1536 : Shape := ⟨2, ![512, 1536]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S100000x1 : Shape := ⟨2, ![100000, 1]⟩
abbrev S100000 : Shape := ⟨1, ![100000]⟩
abbrev S_ : Shape := ⟨0, ![]⟩
abbrev S100000x1536 : Shape := ⟨2, ![100000, 1536]⟩
abbrev S1x512 : Shape := ⟨2, ![1, 512]⟩
abbrev S1x1536 : Shape := ⟨2, ![1, 1536]⟩
abbrev S20000 : Shape := ⟨1, ![20000]⟩
abbrev S20000x1 : Shape := ⟨2, ![20000, 1]⟩

abbrev nBuf : Space → Nat
  | .hbm => 111
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S100000x512, .f32⟩
  | .hbm, ⟨2, _⟩ => ⟨S100000x2, .i32⟩
  | .hbm, ⟨3, _⟩ => ⟨S512x1536, .f32⟩
  | .hbm, ⟨4, _⟩ => ⟨S512, .f32⟩
  | .hbm, ⟨5, _⟩ => ⟨S1536x512, .f32⟩
  | .hbm, ⟨6, _⟩ => ⟨S1536, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S100000x1, .i32⟩
  | .hbm, ⟨16, _⟩ => ⟨S100000, .i32⟩
  | .hbm, ⟨17, _⟩ => ⟨S100000x1, .i32⟩
  | .hbm, ⟨18, _⟩ => ⟨S100000, .i32⟩
  | .hbm, ⟨19, _⟩ => ⟨S_, .i32⟩
  | .hbm, ⟨20, _⟩ => ⟨S100000, .i32⟩
  | .hbm, ⟨21, _⟩ => ⟨S100000, .i1⟩
  | .hbm, ⟨22, _⟩ => ⟨S_, .i32⟩
  | .hbm, ⟨23, _⟩ => ⟨S100000, .i32⟩
  | .hbm, ⟨24, _⟩ => ⟨S100000, .i32⟩
  | .hbm, ⟨25, _⟩ => ⟨S100000, .i32⟩
  | .hbm, ⟨26, _⟩ => ⟨S100000x1, .i32⟩
  | .hbm, ⟨27, _⟩ => ⟨S100000x512, .f32⟩
  | .hbm, ⟨28, _⟩ => ⟨S_, .i32⟩
  | .hbm, ⟨29, _⟩ => ⟨S100000, .i32⟩
  | .hbm, ⟨30, _⟩ => ⟨S100000, .i1⟩
  | .hbm, ⟨31, _⟩ => ⟨S_, .i32⟩
  | .hbm, ⟨32, _⟩ => ⟨S100000, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000x512, .f32⟩
  | .hbm, ⟨37, _⟩ => ⟨S100000x1536, .f32⟩
  | .hbm, ⟨38, _⟩ => ⟨S1536x512, .f32⟩
  | .hbm, ⟨39, _⟩ => ⟨S100000x512, .f32⟩
  | .hbm, ⟨40, _⟩ => ⟨S1x512, .f32⟩
  | .hbm, ⟨41, _⟩ => ⟨S100000x512, .f32⟩
  | .hbm, ⟨42, _⟩ => ⟨S100000x512, .f32⟩
  | .hbm, ⟨43, _⟩ => ⟨S_, .f32⟩
  | .hbm, ⟨44, _⟩ => ⟨S100000x512, .f32⟩
  | .hbm, ⟨45, _⟩ => ⟨S100000x512, .f32⟩
  | .hbm, ⟨46, _⟩ => ⟨S512x1536, .f32⟩
  | .hbm, ⟨47, _⟩ => ⟨S100000x1536, .f32⟩
  | .hbm, ⟨48, _⟩ => ⟨S1x1536, .f32⟩
  | .hbm, ⟨49, _⟩ => ⟨S100000x1536, .f32⟩
  | .hbm, ⟨50, _⟩ => ⟨S100000x1536, .f32⟩
  | .hbm, ⟨51, _⟩ => ⟨S_, .f32⟩
  | .hbm, ⟨52, _⟩ => ⟨S100000x1536, .f32⟩
  | .hbm, ⟨53, _⟩ => ⟨S100000x1536, .f32⟩
  | .hbm, ⟨54, _⟩ => ⟨S100000x512, .f32⟩
  | .hbm, ⟨55, _⟩ => ⟨S100000x512, .f32⟩
  | .hbm, ⟨56, _⟩ => ⟨S100000x512, .f32⟩
  | .hbm, ⟨57, _⟩ => ⟨S_, .f32⟩
  | .hbm, ⟨58, _⟩ => ⟨S20000x512, .f32⟩
  | .hbm, ⟨59, _⟩ => ⟨S100000x1, .i32⟩
  | .hbm, ⟨60, _⟩ => ⟨S20000x512, .f32⟩
  | .hbm, ⟨61, _⟩ => ⟨S_, .f32⟩
  | .hbm, ⟨62, _⟩ => ⟨S20000x512, .f32⟩
  | .hbm, ⟨63, _⟩ => ⟨S100000x1, .i32⟩
  | .hbm, ⟨64, _⟩ => ⟨S20000x512, .f32⟩
  | .hbm, ⟨65, _⟩ => ⟨S20000x512, .f32⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S20000, .f32⟩
  | .hbm, ⟨70, _⟩ => ⟨S100000x1, .i32⟩
  | .hbm, ⟨71, _⟩ => ⟨S20000, .f32⟩
  | .hbm, ⟨72, _⟩ => ⟨S_, .f32⟩
  | .hbm, ⟨73, _⟩ => ⟨S20000, .f32⟩
  | .hbm, ⟨74, _⟩ => ⟨S100000x1, .i32⟩
  | .hbm, ⟨75, _⟩ => ⟨S20000, .f32⟩
  | .hbm, ⟨76, _⟩ => ⟨S20000, .f32⟩
  | .hbm, ⟨77, _⟩ => ⟨S_, .f32⟩
  | .hbm, ⟨78, _⟩ => ⟨S20000, .f32⟩
  | .hbm, ⟨79, _⟩ => ⟨S20000, .f32⟩
  | .hbm, ⟨80, _⟩ => ⟨S20000x1, .f32⟩
  | .hbm, ⟨81, _⟩ => ⟨S20000x512, .f32⟩
  | .hbm, ⟨82, _⟩ => ⟨S20000x512, .f32⟩
  | .hbm, ⟨83, _⟩ => ⟨S512x512, .f32⟩
  | .hbm, ⟨84, _⟩ => ⟨S20000x512, .f32⟩
  | .hbm, ⟨85, _⟩ => ⟨S1x512, .f32⟩
  | .hbm, ⟨86, _⟩ => ⟨S20000x512, .f32⟩
  | .hbm, ⟨87, _⟩ => ⟨S20000x512, .f32⟩
  | .hbm, ⟨88, _⟩ => ⟨S_, .f32⟩
  | .hbm, ⟨89, _⟩ => ⟨S20000x512, .f32⟩
  | .hbm, ⟨90, _⟩ => ⟨S20000x512, .f32⟩
  | .hbm, ⟨91, _⟩ => ⟨S512x512, .f32⟩
  | .hbm, ⟨92, _⟩ => ⟨S20000x512, .f32⟩
  | .hbm, ⟨93, _⟩ => ⟨S1x512, .f32⟩
  | .hbm, ⟨94, _⟩ => ⟨S20000x512, .f32⟩
  | .hbm, ⟨95, _⟩ => ⟨S20000x512, .f32⟩
  | .hbm, ⟨96, _⟩ => ⟨S_, .f32⟩
  | .hbm, ⟨97, _⟩ => ⟨S20000x512, .f32⟩
  | .hbm, ⟨98, _⟩ => ⟨S20000x512, .f32⟩
  | .hbm, ⟨99, _⟩ => ⟨S512x512, .f32⟩
  | .hbm, ⟨100, _⟩ => ⟨S20000x512, .f32⟩
  | .hbm, ⟨101, _⟩ => ⟨S20000x512, .f32⟩
  | .hbm, ⟨102, _⟩ => ⟨S1x512, .f32⟩
  | .hbm, ⟨103, _⟩ => ⟨S20000x512, .f32⟩
  | .hbm, ⟨104, _⟩ => ⟨S20000x512, .f32⟩
  | .hbm, ⟨105, _⟩ => ⟨S512x512, .f32⟩
  | .hbm, ⟨106, _⟩ => ⟨S100000x512, .f32⟩
  | .hbm, ⟨107, _⟩ => ⟨S100000x512, .f32⟩
  | .hbm, ⟨108, _⟩ => ⟨S1x512, .f32⟩
  | .hbm, ⟨109, _⟩ => ⟨S100000x512, .f32⟩
  | .hbm, ⟨110, _⟩ => ⟨S100000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_cst : Ref sig .tc := ⟨.hbm, 43, rfl⟩
abbrev main_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call2_cst : Ref sig .tc := ⟨.hbm, 88, rfl⟩
abbrev main_call2_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call3_cst : Ref sig .tc := ⟨.hbm, 96, rfl⟩
abbrev main_call3_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x512_S100000x512_S100000x512_S100000x1536_d1 : Shape.Concatenates [S100000x512, S100000x512, S100000x512] S100000x1536 1
  transposes_S512x1536_S1536x512_1_0 : S512x1536.Transposes [1, 0] S1536x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  transposes_S1536x512_S512x1536_1_0 : S1536x512.Transposes [1, 0] S512x1536
  bcast_S1536_S1x1536_1 : S1536.BroadcastsInDim S1x1536 (![1] : Fin 1 → Fin S1x1536.rank)
  bcast_S1x1536_S100000x1536_0_1 : S1x1536.BroadcastsInDim S100000x1536 (![0, 1] : Fin 2 → Fin S100000x1536.rank)
  bcast_S_S100000x1536 : S_.BroadcastsInDim S100000x1536 (![] : Fin 0 → Fin S100000x1536.rank)
  slices_S100000x1536_S100000x512_0_0 : S100000x1536.Slices ![0, 0] S100000x512
  slices_S100000x1536_S100000x512_0_512 : S100000x1536.Slices ![0, 512] S100000x512
  slices_S100000x1536_S100000x512_0_1024 : S100000x1536.Slices ![0, 1024] S100000x512
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  transposes_S512x512_S512x512_1_0 : S512x512.Transposes [1, 0] S512x512
  bcast_S1x512_S20000x512_0_1 : S1x512.BroadcastsInDim S20000x512 (![0, 1] : Fin 2 → Fin S20000x512.rank)
  gather_S20000x512_S100000x1_S100000x512_1_0_n_n_0_1_1512_wf : GatherDims.WF S20000x512 S100000x1 S100000x512 [1] [0] [] [0] [] 1 ![1, 512]
  dot_S100000x1536_S1536x512_S100000x512_1_0_0_1_n_n_wf : DotDims.WF S100000x1536 S1536x512 S100000x512 [1] [0] [0] [1] [] []
  dot_S100000x512_S512x1536_S100000x1536_1_0_0_1_n_n_wf : DotDims.WF S100000x512 S512x1536 S100000x1536 [1] [0] [0] [1] [] []
  scatter_S20000x512_S100000x1_S100000x512_1_0_0_1_wf : ScatterDims.WF S20000x512 S100000x1 S100000x512 [1] [0] [0] 1
  scatter_S20000_S100000x1_S100000_n_0_0_1_wf : ScatterDims.WF S20000 S100000x1 S100000 [] [0] [0] 1
  dot_S20000x512_S512x512_S20000x512_1_0_0_1_n_n_wf : DotDims.WF S20000x512 S512x512 S20000x512 [1] [0] [0] [1] [] []
  dot_S100000x512_S512x512_S100000x512_1_0_0_1_n_n_wf : DotDims.WF S100000x512 S512x512 S100000x512 [1] [0] [0] [1] [] []

variable [Facts₀]

def gather_S20000x512_S100000x1_S100000x512_1_0_n_n_0_1_1512 : GatherDims S20000x512 S100000x1 S100000x512 where
  offsetDims := [1]
  collapsedSliceDims := [0]
  operandBatchingDims := []
  startIndicesBatchingDims := []
  startIndexMap := [0]
  indexVectorDim := 1
  sliceSizes := ![1, 512]
  wf := gather_S20000x512_S100000x1_S100000x512_1_0_n_n_0_1_1512_wf
def dot_S100000x1536_S1536x512_S100000x512_1_0_0_1_n_n : DotDims S100000x1536 S1536x512 S100000x512 where
  lhsContracting := [1]
  rhsContracting := [0]
  lhsNonContracting := [0]
  rhsNonContracting := [1]
  lhsBatch := []
  rhsBatch := []
  wf := dot_S100000x1536_S1536x512_S100000x512_1_0_0_1_n_n_wf
def dot_S100000x512_S512x1536_S100000x1536_1_0_0_1_n_n : DotDims S100000x512 S512x1536 S100000x1536 where
  lhsContracting := [1]
  rhsContracting := [0]
  lhsNonContracting := [0]
  rhsNonContracting := [1]
  lhsBatch := []
  rhsBatch := []
  wf := dot_S100000x512_S512x1536_S100000x1536_1_0_0_1_n_n_wf
def scatter_S20000x512_S100000x1_S100000x512_1_0_0_1 : ScatterDims S20000x512 S100000x1 S100000x512 where
  updateWindowDims := [1]
  insertedWindowDims := [0]
  scatterDimsToOperandDims := [0]
  indexVectorDim := 1
  wf := scatter_S20000x512_S100000x1_S100000x512_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.Stages.lean ====
/-
  The dense stages of the graph convolution as functions of whole arrays, read index by index on the
  extended reals.  Rows are edges (for the edge network) or objects (for the object network): entry
  (r, j) of a stage depends on row r of each row-wise operand and on the whole of each weight matrix,
  so the stage of a block of rows is that block of the stage of the array (the row count is a parameter).

  A layer is  x ↦ x · w + b  with the weights stored input-major (w[k, j] multiplies x[r, k]) and the bias
  a 1 × 512 row.  The rectifier compares with the f32 zero word, kept as printed and never evaluated.

    hidden   h = relu ((gs · wa + pv · wb) + go · wc + b)          (three 512-column pieces of one 1536-column layer)
    to a node     relu (h · w + b)
    to the edge   relu (h · w + b) + (pv · p + pb)
    node update   relu (relu (pooled · v1 + c1) · v2 + c2) + (obj · p + pb)
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- A rank-2 array of extended reals. -/
abbrev Mat (a b : Nat) : Type := (⟨2, ![a, b]⟩ : Shape).Idx → EReal

/-- The word the rectifier compares with: the f32 zero, as printed. -/
abbrev zeroWord : EReal := Ideal.ofBits .f32 0x00000000#32

variable {n : Nat}

/-- One affine layer at (r, j): the sum over k of x[r, k] · w[k, j], plus b[0, j]. -/
def layer (x : Mat n 512) (w : Mat 512 512) (b : Mat 1 512) : Mat n 512 := fun i =>
  (∑ k : Fin 512, x (ix2 (i 0) k) * w (ix2 k (i 1))) + b (ix2 0 (i 1))

/-- The edge network's hidden layer: the three 512-column pieces of its 1536-column input (subject row,
    predicate row, object row) each against its own block of the weights, summed left to right, plus the
    bias, rectified. -/
def edgeHidden (gs pv go : Mat n 512) (wa wb wc : Mat 512 512) (b : Mat 1 512) : Mat n 512 := fun i =>
  max ((((∑ k : Fin 512, gs (ix2 (i 0) k) * wa (ix2 k (i 1))) + ∑ k : Fin 512, pv (ix2 (i 0) k) * wb (ix2 k (i 1)))
      + ∑ k : Fin 512, go (ix2 (i 0) k) * wc (ix2 k (i 1))) + b (ix2 0 (i 1))) zeroWord

/-- What an edge sends to one of its two nodes: a rectified layer of the hidden row. -/
def edgeToNode (h : Mat n 512) (w : Mat 512 512) (b : Mat 1 512) : Mat n 512 := fun i =>
  max (layer h w b i) zeroWord

/-- The edge's own new vector: a rectified layer of the hidden row plus the residual projection of the
    predicate row. -/
def edgeToEdge (h pv : Mat n 512) (w : Mat 512 512) (b : Mat 1 512) (p : Mat 512 512) (pb : Mat 1 512) : Mat n 512 := fun i =>
  max (layer h w b i) zeroWord + layer pv p pb i

/-- The node update: two rectified layers of the pooled row plus the residual projection of the node's row. -/
def nodeUpdate (pooled obj : Mat n 512) (v1 : Mat 512 512) (c1 : Mat 1 512) (v2 : Mat 512 512) (c2 : Mat 1 512)
    (p : Mat 512 512) (pb : Mat 1 512) : Mat n 512 := fun i =>
  max (layer (fun i' => max (layer pooled v1 c1 i') zeroWord) v2 c2 i) zeroWord + layer obj p pb i

/-! ## A stage of a block of rows is that block of the stage -/

/-- Rows o … o + n − 1 of an array of N rows. -/
def rowsFrom {N n : Nat} (x : Mat N 512) (o : Nat) (ho : o + n ≤ N) : Mat n 512 := fun i =>
  x (ix2 ⟨o + (i 0).val, by have := (i 0).isLt; simp only [Matrix.cons_val_zero] at this; omega⟩ (i 1))

theorem edgeHidden_rowsFrom {N n : Nat} (gs pv go : Mat N 512) (wa wb wc : Mat 512 512) (b : Mat 1 512) (o : Nat) (ho : o + n ≤ N) :
    edgeHidden (rowsFrom gs o ho) (rowsFrom pv o ho) (rowsFrom go o ho) wa wb wc b = rowsFrom (edgeHidden gs pv go wa wb wc b) o ho :=
  funext fun _ => rfl

theorem edgeToNode_rowsFrom {N n : Nat} (h : Mat N 512) (w : Mat 512 512) (b : Mat 1 512) (o : Nat) (ho : o + n ≤ N) :
    edgeToNode (rowsFrom h o ho) w b = rowsFrom (edgeToNode h w b) o ho :=
  funext fun _ => rfl

theorem edgeToEdge_rowsFrom {N n : Nat} (h pv : Mat N 512) (w : Mat 512 512) (b : Mat 1 512) (p : Mat 512 512) (pb : Mat 1 512)
    (o : Nat) (ho : o + n ≤ N) :
    edgeToEdge (rowsFrom h o ho) (rowsFrom pv o ho) w b p pb = rowsFrom (edgeToEdge h pv w b p pb) o ho :=
  funext fun _ => rfl

theorem nodeUpdate_rowsFrom {N n : Nat} (pooled obj : Mat N 512) (v1 : Mat 512 512) (c1 : Mat 1 512) (v2 : Mat 512 512) (c2 : Mat 1 512)
    (p : Mat 512 512) (pb : Mat 1 512) (o : Nat) (ho : o + n ≤ N) :
    nodeUpdate (rowsFrom pooled o ho) (rowsFrom obj o ho) v1 c1 v2 c2 p pb = rowsFrom (nodeUpdate pooled obj v1 c1 v2 c2 p pb) o ho :=
  funext fun _ => rfl

/-! ## The weights as the stages take them

The inputs store each weight matrix output-major (W[j, k] multiplies x[r, k]) and each bias as a vector; the
stages above take them input-major and as a row.  The first layer of the edge network has 1536 input columns
(three pieces of 512) and its second 1536 output rows (three pieces of 512). -/

/-- A vector of extended reals. -/
abbrev Vect (a : Nat) : Type := (⟨1, ![a]⟩ : Shape).Idx → EReal

/-- The transpose. -/
def transp {a b : Nat} (w : Mat a b) : Mat b a := fun i => w (ix2 (i 1) (i 0))

/-- Columns o … o + 511 of a 512 × 1536 matrix. -/
def colBlock (w : Mat 512 1536) (o : Nat) (ho : o + 512 ≤ 1536) : Mat 512 512 := fun i =>
  w (ix2 (i 0) ⟨o + (i 1).val, by have := (i 1).isLt; simp only [Matrix.cons_val_one, Matrix.cons_val_zero] at this; omega⟩)

/-- Rows o … o + 511 of a 1536 × 512 matrix. -/
def rowBlock (w : Mat 1536 512) (o : Nat) (ho : o + 512 ≤ 1536) : Mat 512 512 := fun i =>
  w (ix2 ⟨o + (i 0).val, by have := (i 0).isLt; simp only [Matrix.cons_val_zero] at this; omega⟩ (i 1))

/-- Entries o … o + 511 of a vector of 1536. -/
def segment (b : Vect 1536) (o : Nat) (ho : o + 512 ≤ 1536) : Vect 512 := fun i =>
  b (ix1 ⟨o + (i 0).val, by have := (i 0).isLt; simp only [Matrix.cons_val_zero, Matrix.cons_val_fin_one] at this; omega⟩)

/-- A vector as a 1 × 512 row. -/
def asRow (b : Vect 512) : Mat 1 512 := fun i => b (ix1 (i 1))

/-! ## The same, read at explicit coordinates -/

theorem layer_apply (x : Mat n 512) (w : Mat 512 512) (b : Mat 1 512) (r : Fin n) (j : Fin 512) :
    layer x w b (ix2 r j) = (∑ k : Fin 512, x (ix2 r k) * w (ix2 k j)) + b (ix2 0 j) := rfl

theorem edgeHidden_apply (gs pv go : Mat n 512) (wa wb wc : Mat 512 512) (b : Mat 1 512) (r : Fin n) (j : Fin 512) :
    edgeHidden gs pv go wa wb wc b (ix2 r j)
      = max ((((∑ k : Fin 512, gs (ix2 r k) * wa (ix2 k j)) + ∑ k : Fin 512, pv (ix2 r k) * wb (ix2 k j))
          + ∑ k : Fin 512, go (ix2 r k) * wc (ix2 k j)) + b (ix2 0 j)) zeroWord := rfl

theorem edgeToNode_apply (h : Mat n 512) (w : Mat 512 512) (b : Mat 1 512) (r : Fin n) (j : Fin 512) :
    edgeToNode h w b (ix2 r j) = max ((∑ k : Fin 512, h (ix2 r k) * w (ix2 k j)) + b (ix2 0 j)) zeroWord := rfl

theorem edgeToEdge_apply (h pv : Mat n 512) (w : Mat 512 512) (b : Mat 1 512) (p : Mat 512 512) (pb : Mat 1 512)
    (r : Fin n) (j : Fin 512) :
    edgeToEdge h pv w b p pb (ix2 r j)
      = max ((∑ k : Fin 512, h (ix2 r k) * w (ix2 k j)) + b (ix2 0 j)) zeroWord
        + ((∑ k : Fin 512, pv (ix2 r k) * p (ix2 k j)) + pb (ix2 0 j)) := rfl

theorem nodeUpdate_apply (pooled obj : Mat n 512) (v1 : Mat 512 512) (c1 : Mat 1 512) (v2 : Mat 512 512) (c2 : Mat 1 512)
    (p : Mat 512 512) (pb : Mat 1 512) (r : Fin n) (j : Fin 512) :
    nodeUpdate pooled obj v1 c1 v2 c2 p pb (ix2 r j)
      = max ((∑ k : Fin 512, max ((∑ l : Fin 512, pooled (ix2 r l) * v1 (ix2 l k)) + c1 (ix2 0 k)) zeroWord * v2 (ix2 k j))
            + c2 (ix2 0 j)) zeroWord
        + ((∑ k : Fin 512, obj (ix2 r k) * p (ix2 k j)) + pb (ix2 0 j)) := rfl

theorem transp_apply {a b : Nat} (w : Mat a b) (p : Fin b) (q : Fin a) : transp w (ix2 p q) = w (ix2 q p) := rfl

theorem colBlock_apply (w : Mat 512 1536) (o : Nat) (ho : o + 512 ≤ 1536) (p q : Fin 512) :
    colBlock w o ho (ix2 p q) = w (ix2 p ⟨o + q.val, by have := q.isLt; omega⟩) := rfl

theorem rowBlock_apply (w : Mat 1536 512) (o : Nat) (ho : o + 512 ≤ 1536) (p q : Fin 512) :
    rowBlock w o ho (ix2 p q) = w (ix2 ⟨o + p.val, by have := p.isLt; omega⟩ q) := rfl

theorem segment_apply (b : Vect 1536) (o : Nat) (ho : o + 512 ≤ 1536) (p : Fin 512) :
    segment b o ho (ix1 p) = b (ix1 ⟨o + p.val, by have := p.isLt; omega⟩) := rfl

theorem asRow_apply (b : Vect 512) (p : Fin 1) (q : Fin 512) : asRow b (ix2 p q) = b (ix1 q) := rfl

end Cert.GraphConv

end
-- ==== Proof.Body.lean ====
/-
  The two kernel bodies at the extended reals, as the stages of Proof/Stages.lean.

  A body loads each of its blocks whole, computes, and stores each result whole, so what it leaves in an
  output block is its arithmetic applied to the loaded blocks.  That arithmetic is: matrix products into a
  zero accumulator (at (r, j) the sum over k of x[r, k] · w[k, j]), a bias row repeated down the rows,
  sums, and the rectifier; a change of float format is the identity here.
-/
import proofs.«401777_j44530220925731_1_alg».proof.Proof.Gen.KernelIdeal.Frame
import proofs.«401777_j44530220925731_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen Cert.GraphConv
open Idealize.ShloMosaic Idealize.ShloMosaic.ValueIdx Idealize.ShloMosaic.Pipeline

/-! ## The matrix product of a block of rows, and the bias row, at an index -/

theorem lhs_rows_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_rows_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_rows_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_rows_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- A block of 1000 rows times a 512 × 512 matrix, into the zero accumulator: entry (r, j) is the sum over k of
    x[r, k] · w[k, j]. -/
theorem matmul_rows {φ₁ φ₂ : FTy} (x : FVec Ideal S1000x512 φ₁) (w : FVec Ideal S512x512 φ₂) (p : Fin 1000) (q : Fin 512) :
    matmul dot_S1000x512_S512x512_S1000x512_1_0_0_1_n_n none x w (constant S1000x512 .f32 0x00000000#32) (ix2 p q)
      = ∑ k : Fin 512, x (ix2 p k) * w (ix2 k q) := by
  refine (Ideal.matmul_constant_zero_apply dot_S1000x512_S512x512_S1000x512_1_0_0_1_n_n none x w (ix2 p q)).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 p q) ((ValueIdx.contrEquiv1 dot_S1000x512_S512x512_S1000x512_1_0_0_1_n_n 512 rfl rfl).symm k) = ix2 p k := funext fun a => Fin.ext (by
    match a with
    | ⟨0, _⟩ => exact lhs_rows_0 _ _
    | ⟨1, _⟩ => exact (lhs_rows_1 _ _).trans hk)
  have er : dot_S1000x512_S512x512_S1000x512_1_0_0_1_n_n.rhsIdx (ix2 p q) ((ValueIdx.contrEquiv1 dot_S1000x512_S512x512_S1000x512_1_0_0_1_n_n 512 rfl rfl).symm k) = ix2 k q := funext fun a => Fin.ext (by
    match a with
    | ⟨0, _⟩ => exact (rhs_rows_0 _ _).trans hk
    | ⟨1, _⟩ => exact rhs_rows_1 _ _)
  rw [el, er]

/-- A 1 × 512 row repeated down 1000 rows: entry (r, j) is b[0, j]. -/
theorem bias_rows (b : FVec Ideal S1x512 .f32) (p : Fin 1000) (q : Fin 512) :
    broadcastTo S1000x512 b broadcasts_S1x512_S1000x512 (ix2 p q) = b (ix2 0 q) :=
  broadcastTo_apply b broadcasts_S1x512_S1000x512 (ix2 p q) (ix2 0 q) (fun a => by
    match a with
    | ⟨0, _⟩ => rfl
    | ⟨1, _⟩ => rfl)

/-! ## The payloads are the stages -/

theorem hidden_eq (v0 : Vec Ideal S1000x512 .bf16) (v2 : Vec Ideal S1000x512 .f32) (v4 : Vec Ideal S1000x512 .bf16)
    (v6 v8 v10 : Vec Ideal S512x512 .bf16) (v12 : Vec Ideal S1x512 .f32) :
    k0_pay5 (F := Ideal) v0 v2 v4 v6 v8 v10 v12 = edgeHidden v0 v2 v4 v6 v8 v10 v12 := by
  funext i
  obtain ⟨p, q, rfl⟩ : ∃ (p : Fin 1000) (q : Fin 512), i = ix2 p q := ⟨i 0, i 1, eq_ix2 i⟩
  unfold k0_pay5 k0_pay4
  simp only [shapeCast_self, truncf_apply, maximumf_apply, addf_apply, matmul_rows, bias_rows, broadcast_apply,
    edgeHidden_apply, edgeToNode_apply, edgeToEdge_apply, nodeUpdate_apply]
  rfl

theorem toNode_eq (h : FVec Ideal S1000x512 .bf16) (w : FVec Ideal S512x512 .bf16) (b : FVec Ideal S1x512 .f32) :
    k0_pay1 (F := Ideal) h w b = edgeToNode h w b := by
  funext i
  obtain ⟨p, q, rfl⟩ : ∃ (p : Fin 1000) (q : Fin 512), i = ix2 p q := ⟨i 0, i 1, eq_ix2 i⟩
  unfold k0_pay1
  simp only [maximumf_apply, addf_apply, matmul_rows, bias_rows, broadcast_apply,
    edgeHidden_apply, edgeToNode_apply, edgeToEdge_apply, nodeUpdate_apply]
  rfl

theorem toNode_eq' (h : FVec Ideal S1000x512 .bf16) (w : FVec Ideal S512x512 .bf16) (b : Vec Ideal S1x512 .f32) :
    k0_pay2 (F := Ideal) h w b = edgeToNode h w b := by
  funext i
  obtain ⟨p, q, rfl⟩ : ∃ (p : Fin 1000) (q : Fin 512), i = ix2 p q := ⟨i 0, i 1, eq_ix2 i⟩
  unfold k0_pay2
  simp only [shapeCast_self, maximumf_apply, addf_apply, matmul_rows, bias_rows, broadcast_apply,
    edgeHidden_apply, edgeToNode_apply, edgeToEdge_apply, nodeUpdate_apply]
  rfl

theorem toEdge_eq (pv h : FVec Ideal S1000x512 .bf16) (w : FVec Ideal S512x512 .bf16) (b : Vec Ideal S1x512 .f32)
    (p : Vec Ideal S512x512 .bf16) (pb : Vec Ideal S1x512 .f32) :
    k0_pay3 (F := Ideal) pv h w b p pb = edgeToEdge h pv w b p pb := by
  funext i
  obtain ⟨r, j, rfl⟩ : ∃ (r : Fin 1000) (j : Fin 512), i = ix2 r j := ⟨i 0, i 1, eq_ix2 i⟩
  unfold k0_pay3
  simp only [shapeCast_self, maximumf_apply, addf_apply, matmul_rows, bias_rows, broadcast_apply,
    edgeHidden_apply, edgeToNode_apply, edgeToEdge_apply, nodeUpdate_apply]
  rfl

theorem nodeUpdate_eq (v0 v3 : Vec Ideal S1000x512 .f32) (v5 : Vec Ideal S512x512 .bf16) (v7 : Vec Ideal S1x512 .f32)
    (v15 : Vec Ideal S512x512 .bf16) (v17 : Vec Ideal S1x512 .f32) (v24 : Vec Ideal S512x512 .bf16) (v26 : Vec Ideal S1x512 .f32) :
    k1_pay1 (F := Ideal) v0 v3 v5 v7 v15 v17 v24 v26 = nodeUpdate v0 v3 v5 v7 v15 v17 v24 v26 := by
  funext i
  obtain ⟨p, q, rfl⟩ : ∃ (p : Fin 1000) (q : Fin 512), i = ix2 p q := ⟨i 0, i 1, eq_ix2 i⟩
  unfold k1_pay1
  simp only [shapeCast_self, truncf_apply, maximumf_apply, addf_apply, matmul_rows, bias_rows, broadcast_apply,
    edgeHidden_apply, edgeToNode_apply, edgeToEdge_apply, nodeUpdate_apply]
  rfl

/-! ## What a body leaves in each output block -/

theorem hz : (![0, 0] : Fin 2 → Nat) = fun _ => 0 := funext fun a => by fin_cases a <;> rfl

/-- The edge body's first output block: what each edge of the block sends to its subject node. -/
theorem out0_15_eq (x0 : Vec Ideal S1000x512 .bf16) (x1 : Vec Ideal S1000x512 .f32) (x2 : Vec Ideal S1000x512 .bf16) (x3 : Vec Ideal S512x512 .bf16) (x4 : Vec Ideal S512x512 .bf16) (x5 : Vec Ideal S512x512 .bf16) (x6 : Vec Ideal S1x512 .f32) (x7 : Vec Ideal S512x512 .bf16) (x8 : Vec Ideal S512x512 .bf16) (x9 : Vec Ideal S512x512 .bf16) (x10 : Vec Ideal S1x512 .f32) (x11 : Vec Ideal S1x512 .f32) (x12 : Vec Ideal S1x512 .f32) (x13 : Vec Ideal S512x512 .bf16) (x14 : Vec Ideal S1x512 .f32) :
    out0_15 (F := Ideal) x0 x1 x2 x3 x4 x5 x6 x7 x8 x9 x10 x11 x12 x13 x14 = edgeToNode (edgeHidden x0 x1 x2 x3 x4 x5 x6) x7 x10 := by
  unfold out0_15
  rw [View.canon_unit_zero hz]
  simp only [View.ld_unit_zero (S := S1000x512) hz, View.ld_unit_zero (S := S512x512) hz, View.ld_unit_zero (S := S1x512) hz]
  rw [hidden_eq]
  unfold k0_pay6 k0_pay9
  dsimp only
  simp only [shapeCast_self]
  exact toNode_eq _ _ _

/-- The edge body's second output block: each edge's own new vector. -/
theorem out0_16_eq (x0 : Vec Ideal S1000x512 .bf16) (x1 : Vec Ideal S1000x512 .f32) (x2 : Vec Ideal S1000x512 .bf16) (x3 : Vec Ideal S512x512 .bf16) (x4 : Vec Ideal S512x512 .bf16) (x5 : Vec Ideal S512x512 .bf16) (x6 : Vec Ideal S1x512 .f32) (x7 : Vec Ideal S512x512 .bf16) (x8 : Vec Ideal S512x512 .bf16) (x9 : Vec Ideal S512x512 .bf16) (x10 : Vec Ideal S1x512 .f32) (x11 : Vec Ideal S1x512 .f32) (x12 : Vec Ideal S1x512 .f32) (x13 : Vec Ideal S512x512 .bf16) (x14 : Vec Ideal S1x512 .f32) :
    out0_16 (F := Ideal) x0 x1 x2 x3 x4 x5 x6 x7 x8 x9 x10 x11 x12 x13 x14 = edgeToEdge (edgeHidden x0 x1 x2 x3 x4 x5 x6) x1 x8 x11 x13 x14 := by
  unfold out0_16
  rw [View.canon_unit_zero hz]
  simp only [View.ld_unit_zero (S := S1000x512) hz, View.ld_unit_zero (S := S512x512) hz, View.ld_unit_zero (S := S1x512) hz]
  rw [hidden_eq]
  unfold k0_pay7 k0_pay4
  dsimp only
  simp only [shapeCast_self]
  exact toEdge_eq _ _ _ _ _ _

/-- The edge body's third output block: what each edge of the block sends to its object node. -/
theorem out0_17_eq (x0 : Vec Ideal S1000x512 .bf16) (x1 : Vec Ideal S1000x512 .f32) (x2 : Vec Ideal S1000x512 .bf16) (x3 : Vec Ideal S512x512 .bf16) (x4 : Vec Ideal S512x512 .bf16) (x5 : Vec Ideal S512x512 .bf16) (x6 : Vec Ideal S1x512 .f32) (x7 : Vec Ideal S512x512 .bf16) (x8 : Vec Ideal S512x512 .bf16) (x9 : Vec Ideal S512x512 .bf16) (x10 : Vec Ideal S1x512 .f32) (x11 : Vec Ideal S1x512 .f32) (x12 : Vec Ideal S1x512 .f32) (x13 : Vec Ideal S512x512 .bf16) (x14 : Vec Ideal S1x512 .f32) :
    out0_17 (F := Ideal) x0 x1 x2 x3 x4 x5 x6 x7 x8 x9 x10 x11 x12 x13 x14 = edgeToNode (edgeHidden x0 x1 x2 x3 x4 x5 x6) x9 x12 := by
  unfold out0_17
  rw [View.canon_unit_zero hz]
  simp only [View.ld_unit_zero (S := S1000x512) hz, View.ld_unit_zero (S := S512x512) hz, View.ld_unit_zero (S := S1x512) hz]
  rw [hidden_eq]
  unfold k0_pay8
  dsimp only
  simp only [shapeCast_self]
  exact toNode_eq' _ _ _

/-- The node body's output block. -/
theorem out1_8_eq (x0 : Vec Ideal S1000x512 .f32) (x1 : Vec Ideal S1000x512 .f32) (x2 : Vec Ideal S512x512 .bf16) (x3 : Vec Ideal S1x512 .f32) (x4 : Vec Ideal S512x512 .bf16) (x5 : Vec Ideal S1x512 .f32) (x6 : Vec Ideal S512x512 .bf16) (x7 : Vec Ideal S1x512 .f32) :
    out1_8 (F := Ideal) x0 x1 x2 x3 x4 x5 x6 x7 = nodeUpdate x0 x1 x2 x3 x4 x5 x6 x7 := by
  unfold out1_8
  rw [View.canon_unit_zero hz]
  simp only [View.ld_unit_zero (S := S1000x512) hz, View.ld_unit_zero (S := S512x512) hz, View.ld_unit_zero (S := S1x512) hz]
  exact nodeUpdate_eq _ _ _ _ _ _ _ _

end Cert.KernelIdeal.Body

end
-- ==== Proof.Region0.lean ====
/-
  The edge region's output arrays after its grid, as the stages of the arrays the region finds at its entry.

  The grid has 100 points; point t stages rows 1000 t … 1000 t + 999 of each row-wise array (all 512 columns) and the
  whole of each weight matrix and bias row, and writes back rows 1000 t … 1000 t + 999 of each output.  A stage of a
  block of rows is that block of the stage, so point t writes block t of the stage of the whole arrays; the blocks
  t = 0 … 99 tile the 100000 rows (row r lies in block r / 1000), so each output array ends as that stage.
-/
import proofs.«401777_j44530220925731_1_alg».proof.Proof.Gen.KernelIdeal.Frame
import proofs.«401777_j44530220925731_1_alg».proof.Proof.Stages
import proofs.«401777_j44530220925731_1_alg».proof.Proof.Body
import Idealize.ShloMosaic.Lib.Pipeline.Value
import Idealize.ShloMosaic.Lib.ValueIdx

set_option maxRecDepth 16384

noncomputable section

namespace Cert.KernelIdeal.EdgeRegion

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

/-! ## The index maps, decided over the grid: a row-wise window is at block (t, 0), a weight window at (0, 0) -/

theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

theorem rows_bound (t : Fin cfg0.N) : 1000 * t.val + 1000 ≤ 100000 := by
  have := t.isLt
  have h : cfg0.N = 100 := N_0
  omega

/-! ## A window's block at a point, read off an array -/

theorem read_rows_0 (X : S100000x512.Idx → EReal) (t : Fin cfg0.N) :
    ((cfg0.win 0).blk t).view.read (Elt Ideal) X = rowsFrom (N := 100000) (n := 1000) X (1000 * t.val) (rows_bound t) := by
  funext y
  show X (((cfg0.win 0).blk t).view.emb y) = X _
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_0.index t (0 : Fin 2) * 1000 + 1 * (y 0).val = 1000 * t.val + (y 0).val; rw [r0]; omega
  | ⟨1, _⟩ => show win0_0.index t (1 : Fin 2) * 512 + 1 * (y 1).val = (y 1).val; rw [k0]; omega

theorem read_rows_1 (X : S100000x512.Idx → EReal) (t : Fin cfg0.N) :
    ((cfg0.win 1).blk t).view.read (Elt Ideal) X = rowsFrom (N := 100000) (n := 1000) X (1000 * t.val) (rows_bound t) := by
  funext y
  show X (((cfg0.win 1).blk t).view.emb y) = X _
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_1.index t (0 : Fin 2) * 1000 + 1 * (y 0).val = 1000 * t.val + (y 0).val; rw [r1]; omega
  | ⟨1, _⟩ => show win0_1.index t (1 : Fin 2) * 512 + 1 * (y 1).val = (y 1).val; rw [k1]; omega

theorem read_rows_2 (X : S100000x512.Idx → EReal) (t : Fin cfg0.N) :
    ((cfg0.win 2).blk t).view.read (Elt Ideal) X = rowsFrom (N := 100000) (n := 1000) X (1000 * t.val) (rows_bound t) := by
  funext y
  show X (((cfg0.win 2).blk t).view.emb y) = X _
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_2.index t (0 : Fin 2) * 1000 + 1 * (y 0).val = 1000 * t.val + (y 0).val; rw [r2]; omega
  | ⟨1, _⟩ => show win0_2.index t (1 : Fin 2) * 512 + 1 * (y 1).val = (y 1).val; rw [k2]; omega

theorem read_rows_15 (X : S100000x512.Idx → EReal) (t : Fin cfg0.N) :
    ((cfg0.win 15).blk t).view.read (Elt Ideal) X = rowsFrom (N := 100000) (n := 1000) X (1000 * t.val) (rows_bound t) := by
  funext y
  show X (((cfg0.win 15).blk t).view.emb y) = X _
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_15.index t (0 : Fin 2) * 1000 + 1 * (y 0).val = 1000 * t.val + (y 0).val; rw [r15]; omega
  | ⟨1, _⟩ => show win0_15.index t (1 : Fin 2) * 512 + 1 * (y 1).val = (y 1).val; rw [k15]; omega

theorem read_rows_16 (X : S100000x512.Idx → EReal) (t : Fin cfg0.N) :
    ((cfg0.win 16).blk t).view.read (Elt Ideal) X = rowsFrom (N := 100000) (n := 1000) X (1000 * t.val) (rows_bound t) := by
  funext y
  show X (((cfg0.win 16).blk t).view.emb y) = X _
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_16.index t (0 : Fin 2) * 1000 + 1 * (y 0).val = 1000 * t.val + (y 0).val; rw [r16]; omega
  | ⟨1, _⟩ => show win0_16.index t (1 : Fin 2) * 512 + 1 * (y 1).val = (y 1).val; rw [k16]; omega

theorem read_rows_17 (X : S100000x512.Idx → EReal) (t : Fin cfg0.N) :
    ((cfg0.win 17).blk t).view.read (Elt Ideal) X = rowsFrom (N := 100000) (n := 1000) X (1000 * t.val) (rows_bound t) := by
  funext y
  show X (((cfg0.win 17).blk t).view.emb y) = X _
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_17.index t (0 : Fin 2) * 1000 + 1 * (y 0).val = 1000 * t.val + (y 0).val; rw [r17]; omega
  | ⟨1, _⟩ => show win0_17.index t (1 : Fin 2) * 512 + 1 * (y 1).val = (y 1).val; rw [k17]; omega

theorem read_whole_3 (X : S512x512.Idx → EReal) (t : Fin cfg0.N) :
    ((cfg0.win 3).blk t).view.read (Elt Ideal) X = X := by
  funext y
  show X (((cfg0.win 3).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_3.index t (0 : Fin 2) * 512 + 1 * (y 0).val = (y 0).val; rw [r3]; omega
  | ⟨1, _⟩ => show win0_3.index t (1 : Fin 2) * 512 + 1 * (y 1).val = (y 1).val; rw [k3]; omega

theorem read_whole_4 (X : S512x512.Idx → EReal) (t : Fin cfg0.N) :
    ((cfg0.win 4).blk t).view.read (Elt Ideal) X = X := by
  funext y
  show X (((cfg0.win 4).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_4.index t (0 : Fin 2) * 512 + 1 * (y 0).val = (y 0).val; rw [r4]; omega
  | ⟨1, _⟩ => show win0_4.index t (1 : Fin 2) * 512 + 1 * (y 1).val = (y 1).val; rw [k4]; omega

theorem read_whole_5 (X : S512x512.Idx → EReal) (t : Fin cfg0.N) :
    ((cfg0.win 5).blk t).view.read (Elt Ideal) X = X := by
  funext y
  show X (((cfg0.win 5).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_5.index t (0 : Fin 2) * 512 + 1 * (y 0).val = (y 0).val; rw [r5]; omega
  | ⟨1, _⟩ => show win0_5.index t (1 : Fin 2) * 512 + 1 * (y 1).val = (y 1).val; rw [k5]; omega

theorem read_whole_6 (X : S1x512.Idx → EReal) (t : Fin cfg0.N) :
    ((cfg0.win 6).blk t).view.read (Elt Ideal) X = X := by
  funext y
  show X (((cfg0.win 6).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_6.index t (0 : Fin 2) * 1 + 1 * (y 0).val = (y 0).val; rw [r6]; omega
  | ⟨1, _⟩ => show win0_6.index t (1 : Fin 2) * 512 + 1 * (y 1).val = (y 1).val; rw [k6]; omega

theorem read_whole_7 (X : S512x512.Idx → EReal) (t : Fin cfg0.N) :
    ((cfg0.win 7).blk t).view.read (Elt Ideal) X = X := by
  funext y
  show X (((cfg0.win 7).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_7.index t (0 : Fin 2) * 512 + 1 * (y 0).val = (y 0).val; rw [r7]; omega
  | ⟨1, _⟩ => show win0_7.index t (1 : Fin 2) * 512 + 1 * (y 1).val = (y 1).val; rw [k7]; omega

theorem read_whole_8 (X : S512x512.Idx → EReal) (t : Fin cfg0.N) :
    ((cfg0.win 8).blk t).view.read (Elt Ideal) X = X := by
  funext y
  show X (((cfg0.win 8).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_8.index t (0 : Fin 2) * 512 + 1 * (y 0).val = (y 0).val; rw [r8]; omega
  | ⟨1, _⟩ => show win0_8.index t (1 : Fin 2) * 512 + 1 * (y 1).val = (y 1).val; rw [k8]; omega

theorem read_whole_9 (X : S512x512.Idx → EReal) (t : Fin cfg0.N) :
    ((cfg0.win 9).blk t).view.read (Elt Ideal) X = X := by
  funext y
  show X (((cfg0.win 9).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_9.index t (0 : Fin 2) * 512 + 1 * (y 0).val = (y 0).val; rw [r9]; omega
  | ⟨1, _⟩ => show win0_9.index t (1 : Fin 2) * 512 + 1 * (y 1).val = (y 1).val; rw [k9]; omega

theorem read_whole_10 (X : S1x512.Idx → EReal) (t : Fin cfg0.N) :
    ((cfg0.win 10).blk t).view.read (Elt Ideal) X = X := by
  funext y
  show X (((cfg0.win 10).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_10.index t (0 : Fin 2) * 1 + 1 * (y 0).val = (y 0).val; rw [r10]; omega
  | ⟨1, _⟩ => show win0_10.index t (1 : Fin 2) * 512 + 1 * (y 1).val = (y 1).val; rw [k10]; omega

theorem read_whole_11 (X : S1x512.Idx → EReal) (t : Fin cfg0.N) :
    ((cfg0.win 11).blk t).view.read (Elt Ideal) X = X := by
  funext y
  show X (((cfg0.win 11).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_11.index t (0 : Fin 2) * 1 + 1 * (y 0).val = (y 0).val; rw [r11]; omega
  | ⟨1, _⟩ => show win0_11.index t (1 : Fin 2) * 512 + 1 * (y 1).val = (y 1).val; rw [k11]; omega

theorem read_whole_12 (X : S1x512.Idx → EReal) (t : Fin cfg0.N) :
    ((cfg0.win 12).blk t).view.read (Elt Ideal) X = X := by
  funext y
  show X (((cfg0.win 12).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_12.index t (0 : Fin 2) * 1 + 1 * (y 0).val = (y 0).val; rw [r12]; omega
  | ⟨1, _⟩ => show win0_12.index t (1 : Fin 2) * 512 + 1 * (y 1).val = (y 1).val; rw [k12]; omega

theorem read_whole_13 (X : S512x512.Idx → EReal) (t : Fin cfg0.N) :
    ((cfg0.win 13).blk t).view.read (Elt Ideal) X = X := by
  funext y
  show X (((cfg0.win 13).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_13.index t (0 : Fin 2) * 512 + 1 * (y 0).val = (y 0).val; rw [r13]; omega
  | ⟨1, _⟩ => show win0_13.index t (1 : Fin 2) * 512 + 1 * (y 1).val = (y 1).val; rw [k13]; omega

theorem read_whole_14 (X : S1x512.Idx → EReal) (t : Fin cfg0.N) :
    ((cfg0.win 14).blk t).view.read (Elt Ideal) X = X := by
  funext y
  show X (((cfg0.win 14).blk t).view.emb y) = X y
  refine congrArg X (funext fun a => Fin.ext ?_)
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts t
  match a with
  | ⟨0, _⟩ => show win0_14.index t (0 : Fin 2) * 1 + 1 * (y 0).val = (y 0).val; rw [r14]; omega
  | ⟨1, _⟩ => show win0_14.index t (1 : Fin 2) * 512 + 1 * (y 1).val = (y 1).val; rw [k14]; omega

variable (V : (c : Dev nD) → (b : Ref sig .tc) → Buf (Elt Ideal) ((c : Thread nD τ).loc b))

/-! ## The input blocks at a point -/

theorem iblk_0 (c : Dev nD) (t : Fin cfg0.N) :
    iblk0 V c 0 t = rowsFrom (N := 100000) (n := 1000) (V c main_v5 : Mat 100000 512) (1000 * t.val) (rows_bound t) :=
  read_rows_0 _ t
theorem iblk_1 (c : Dev nD) (t : Fin cfg0.N) :
    iblk0 V c 1 t = rowsFrom (N := 100000) (n := 1000) (V c main_arg1 : Mat 100000 512) (1000 * t.val) (rows_bound t) :=
  read_rows_1 _ t
theorem iblk_2 (c : Dev nD) (t : Fin cfg0.N) :
    iblk0 V c 2 t = rowsFrom (N := 100000) (n := 1000) (V c main_v7 : Mat 100000 512) (1000 * t.val) (rows_bound t) :=
  read_rows_2 _ t
theorem iblk_3 (c : Dev nD) (t : Fin cfg0.N) : iblk0 V c 3 t = (V c main_v10 : Mat 512 512) :=
  read_whole_3 _ t
theorem iblk_4 (c : Dev nD) (t : Fin cfg0.N) : iblk0 V c 4 t = (V c main_v13 : Mat 512 512) :=
  read_whole_4 _ t
theorem iblk_5 (c : Dev nD) (t : Fin cfg0.N) : iblk0 V c 5 t = (V c main_v16 : Mat 512 512) :=
  read_whole_5 _ t
theorem iblk_6 (c : Dev nD) (t : Fin cfg0.N) : iblk0 V c 6 t = (V c main_v17 : Mat 1 512) :=
  read_whole_6 _ t
theorem iblk_7 (c : Dev nD) (t : Fin cfg0.N) : iblk0 V c 7 t = (V c main_v22 : Mat 512 512) :=
  read_whole_7 _ t
theorem iblk_8 (c : Dev nD) (t : Fin cfg0.N) : iblk0 V c 8 t = (V c main_v24 : Mat 512 512) :=
  read_whole_8 _ t
theorem iblk_9 (c : Dev nD) (t : Fin cfg0.N) : iblk0 V c 9 t = (V c main_v26 : Mat 512 512) :=
  read_whole_9 _ t
theorem iblk_10 (c : Dev nD) (t : Fin cfg0.N) : iblk0 V c 10 t = (V c main_v28 : Mat 1 512) :=
  read_whole_10 _ t
theorem iblk_11 (c : Dev nD) (t : Fin cfg0.N) : iblk0 V c 11 t = (V c main_v30 : Mat 1 512) :=
  read_whole_11 _ t
theorem iblk_12 (c : Dev nD) (t : Fin cfg0.N) : iblk0 V c 12 t = (V c main_v32 : Mat 1 512) :=
  read_whole_12 _ t
theorem iblk_13 (c : Dev nD) (t : Fin cfg0.N) : iblk0 V c 13 t = (V c main_v34 : Mat 512 512) :=
  read_whole_13 _ t
theorem iblk_14 (c : Dev nD) (t : Fin cfg0.N) : iblk0 V c 14 t = (V c main_v35 : Mat 1 512) :=
  read_whole_14 _ t

/-! ## The stages of the entry arrays -/

/-- The hidden rows of all edges. -/
abbrev hiddenRows (c : Dev nD) : Mat 100000 512 :=
  edgeHidden (V c main_v5 : Mat 100000 512) (V c main_arg1 : Mat 100000 512) (V c main_v7 : Mat 100000 512) (V c main_v10 : Mat 512 512) (V c main_v13 : Mat 512 512) (V c main_v16 : Mat 512 512) (V c main_v17 : Mat 1 512)

/-- What every edge sends to its subject node. -/
abbrev toSubject (c : Dev nD) : Mat 100000 512 :=
  edgeToNode (hiddenRows V c) (V c main_v22 : Mat 512 512) (V c main_v28 : Mat 1 512)

/-- Every edge's own new vector. -/
abbrev newEdge (c : Dev nD) : Mat 100000 512 :=
  edgeToEdge (hiddenRows V c) (V c main_arg1 : Mat 100000 512) (V c main_v24 : Mat 512 512) (V c main_v30 : Mat 1 512) (V c main_v34 : Mat 512 512) (V c main_v35 : Mat 1 512)

/-- What every edge sends to its object node. -/
abbrev toObject (c : Dev nD) : Mat 100000 512 :=
  edgeToNode (hiddenRows V c) (V c main_v26 : Mat 512 512) (V c main_v32 : Mat 1 512)

/-! ## What a point writes back, the cover, and the arrays after the grid -/

/-- Point t writes back block t of the stage. -/
theorem flushed_toSubject (c : Dev nD) (t : Fin cfg0.N) :
    (dat0 V c).flushed 15 t = ((cfg0.win 15).blk t).view.read (Elt Ideal) (toSubject V c) := by
  rw [read_rows_15 (toSubject V c) t]
  show (cfg0.win 15).cut (grid0.coords t) ((dat0 V c).after 15 t) = _
  rw [after0_15, Body.out0_15_eq, iblk_0, iblk_1, iblk_2, iblk_3, iblk_4, iblk_5, iblk_6, iblk_7, iblk_10,
    edgeHidden_rowsFrom, edgeToNode_rowsFrom]
  rfl

/-- Every row lies in the block of the point r / 1000. -/
theorem covered_toSubject (i : S100000x512.Idx) :
    ∃ t : Fin cfg0.N, (cfg0.win 15).flush t = true ∧ i ∈ ((cfg0.win 15).blk t).view.set := by
  have h0 : (i 0).val < 100000 := (i 0).isLt
  have h1 : (i 1).val < 512 := (i 1).isLt
  have hN : cfg0.N = 100 := N_0
  have hlt : (i 0).val / 1000 < cfg0.N := by omega
  refine ⟨⟨(i 0).val / 1000, hlt⟩, flush0_15 _, ?_⟩
  show i ∈ ((View.whole main_v36_0).slice (win0_15.rect ⟨(i 0).val / 1000, hlt⟩)).set
  rw [View.set_slice_whole, Rect.mem_set_unit]
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts ⟨(i 0).val / 1000, hlt⟩
  intro a
  match a with
  | ⟨0, _⟩ =>
    show win0_15.index ⟨(i 0).val / 1000, hlt⟩ (0 : Fin 2) * 1000 ≤ (i 0).val
      ∧ (i 0).val < win0_15.index ⟨(i 0).val / 1000, hlt⟩ (0 : Fin 2) * 1000 + 1000
    rw [r15]
    show (i 0).val / 1000 * 1000 ≤ (i 0).val ∧ (i 0).val < (i 0).val / 1000 * 1000 + 1000
    omega
  | ⟨1, _⟩ =>
    show win0_15.index ⟨(i 0).val / 1000, hlt⟩ (1 : Fin 2) * 512 ≤ (i 1).val
      ∧ (i 1).val < win0_15.index ⟨(i 0).val / 1000, hlt⟩ (1 : Fin 2) * 512 + 512
    rw [k15]
    omega

/-- After the grid the output array is the stage of the entry arrays. -/
theorem toSubject_array (c : Dev nD) : (dat0 V c).arrAt 15 cfg0.N = toSubject V c :=
  (dat0 V c).arrAt_eq_of_cover 15 (toSubject V c) (fun t _ => flushed_toSubject V c t) (fun i => covered_toSubject i)

/-- Point t writes back block t of the stage. -/
theorem flushed_newEdge (c : Dev nD) (t : Fin cfg0.N) :
    (dat0 V c).flushed 16 t = ((cfg0.win 16).blk t).view.read (Elt Ideal) (newEdge V c) := by
  rw [read_rows_16 (newEdge V c) t]
  show (cfg0.win 16).cut (grid0.coords t) ((dat0 V c).after 16 t) = _
  rw [after0_16, Body.out0_16_eq, iblk_0, iblk_1, iblk_2, iblk_3, iblk_4, iblk_5, iblk_6, iblk_8, iblk_11, iblk_13, iblk_14,
    edgeHidden_rowsFrom, edgeToEdge_rowsFrom]
  rfl

/-- Every row lies in the block of the point r / 1000. -/
theorem covered_newEdge (i : S100000x512.Idx) :
    ∃ t : Fin cfg0.N, (cfg0.win 16).flush t = true ∧ i ∈ ((cfg0.win 16).blk t).view.set := by
  have h0 : (i 0).val < 100000 := (i 0).isLt
  have h1 : (i 1).val < 512 := (i 1).isLt
  have hN : cfg0.N = 100 := N_0
  have hlt : (i 0).val / 1000 < cfg0.N := by omega
  refine ⟨⟨(i 0).val / 1000, hlt⟩, flush0_16 _, ?_⟩
  show i ∈ ((View.whole main_v36_1).slice (win0_16.rect ⟨(i 0).val / 1000, hlt⟩)).set
  rw [View.set_slice_whole, Rect.mem_set_unit]
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts ⟨(i 0).val / 1000, hlt⟩
  intro a
  match a with
  | ⟨0, _⟩ =>
    show win0_16.index ⟨(i 0).val / 1000, hlt⟩ (0 : Fin 2) * 1000 ≤ (i 0).val
      ∧ (i 0).val < win0_16.index ⟨(i 0).val / 1000, hlt⟩ (0 : Fin 2) * 1000 + 1000
    rw [r16]
    show (i 0).val / 1000 * 1000 ≤ (i 0).val ∧ (i 0).val < (i 0).val / 1000 * 1000 + 1000
    omega
  | ⟨1, _⟩ =>
    show win0_16.index ⟨(i 0).val / 1000, hlt⟩ (1 : Fin 2) * 512 ≤ (i 1).val
      ∧ (i 1).val < win0_16.index ⟨(i 0).val / 1000, hlt⟩ (1 : Fin 2) * 512 + 512
    rw [k16]
    omega

/-- After the grid the output array is the stage of the entry arrays. -/
theorem newEdge_array (c : Dev nD) : (dat0 V c).arrAt 16 cfg0.N = newEdge V c :=
  (dat0 V c).arrAt_eq_of_cover 16 (newEdge V c) (fun t _ => flushed_newEdge V c t) (fun i => covered_newEdge i)

/-- Point t writes back block t of the stage. -/
theorem flushed_toObject (c : Dev nD) (t : Fin cfg0.N) :
    (dat0 V c).flushed 17 t = ((cfg0.win 17).blk t).view.read (Elt Ideal) (toObject V c) := by
  rw [read_rows_17 (toObject V c) t]
  show (cfg0.win 17).cut (grid0.coords t) ((dat0 V c).after 17 t) = _
  rw [after0_17, Body.out0_17_eq, iblk_0, iblk_1, iblk_2, iblk_3, iblk_4, iblk_5, iblk_6, iblk_9, iblk_12,
    edgeHidden_rowsFrom, edgeToNode_rowsFrom]
  rfl

/-- Every row lies in the block of the point r / 1000. -/
theorem covered_toObject (i : S100000x512.Idx) :
    ∃ t : Fin cfg0.N, (cfg0.win 17).flush t = true ∧ i ∈ ((cfg0.win 17).blk t).view.set := by
  have h0 : (i 0).val < 100000 := (i 0).isLt
  have h1 : (i 1).val < 512 := (i 1).isLt
  have hN : cfg0.N = 100 := N_0
  have hlt : (i 0).val / 1000 < cfg0.N := by omega
  refine ⟨⟨(i 0).val / 1000, hlt⟩, flush0_17 _, ?_⟩
  show i ∈ ((View.whole main_v36_2).slice (win0_17.rect ⟨(i 0).val / 1000, hlt⟩)).set
  rw [View.set_slice_whole, Rect.mem_set_unit]
  obtain ⟨r0, k0, r1, k1, r2, k2, r15, k15, r16, k16, r17, k17, r3, k3, r4, k4, r5, k5, r6, k6, r7, k7, r8, k8, r9, k9, r10, k10, r11, k11, r12, k12, r13, k13, r14, k14⟩ := index_facts ⟨(i 0).val / 1000, hlt⟩
  intro a
  match a with
  | ⟨0, _⟩ =>
    show win0_17.index ⟨(i 0).val / 1000, hlt⟩ (0 : Fin 2) * 1000 ≤ (i 0).val
      ∧ (i 0).val < win0_17.index ⟨(i 0).val / 1000, hlt⟩ (0 : Fin 2) * 1000 + 1000
    rw [r17]
    show (i 0).val / 1000 * 1000 ≤ (i 0).val ∧ (i 0).val < (i 0).val / 1000 * 1000 + 1000
    omega
  | ⟨1, _⟩ =>
    show win0_17.index ⟨(i 0).val / 1000, hlt⟩ (1 : Fin 2) * 512 ≤ (i 1).val
      ∧ (i 1).val < win0_17.index ⟨(i 0).val / 1000, hlt⟩ (1 : Fin 2) * 512 + 512
    rw [k17]
    omega

/-- After the grid the output array is the stage of the entry arrays. -/
theorem toObject_array (c : Dev nD) : (dat0 V c).arrAt 17 cfg0.N = toObject V c :=
  (dat0 V c).arrAt_eq_of_cover 17 (toObject V c) (fun t _ => flushed_toObject V c t) (fun i => covered_toObject i)

end Cert.KernelIdeal.EdgeRegion

end
-- ==== Proof.Region1.lean ====
/-
  The node region's output arrays after its grid, as the stages of the arrays the region finds at its entry.

  The grid has 20 points; point t stages rows 1000 t … 1000 t + 999 of each row-wise array (all 512 columns) and the
  whole of each weight matrix and bias row, and writes back rows 1000 t … 1000 t + 999 of each output.  A stage of a
  block of rows is that block of the stage, so point t writes block t of the stage of the whole arrays; the blocks
  t = 0 … 19 tile the 20000 rows (row r lies in block r / 1000), so each output array ends as that stage.
-/
import proofs.«401777_j44530220925731_1_alg».proof.Proof.Gen.KernelIdeal.Frame
import proofs.«401777_j44530220925731_1_alg».proof.Proof.Stages
import proofs.«401777_j44530220925731_1_alg».proof.Proof.Body
import Idealize.ShloMosaic.Lib.Pipeline.Value
import Idealize.ShloMosaic.Lib.ValueIdx

set_option maxRecDepth 16384

noncomputable section

namespace Cert.KernelIdeal.NodeRegion

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

/-! ## The index maps, decided over the grid: a row-wise window is at block (t, 0), a weight window at (0, 0) -/

theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem rows_bound (t : Fin cfg1.N) : 1000 * t.val + 1000 ≤ 20000 := by
  have := t.isLt
  have h : cfg1.N = 20 := N_1
  omega

/-! ## A window's block at a point, read off an array -/

theorem read_rows_0 (X : S20000x512.Idx → EReal) (t : Fin cfg1.N) :
    ((cfg1.win 0).blk t).view.read (Elt Ideal) X = rowsFrom (N := 20000) (n := 1000) X (1000 * t.val) (rows_bound t) := by
  funext y
  show X (((cfg1.win 0).blk t).view.emb y) = X _
  refine congrArg X (funext fun a => Fin.ext ?_)
  obtain ⟨r0, k0, r1, k1, r8, k8, r2, k2, r3, k3, r4, k4, r5, k5, r6, k6, r7, k7⟩ := index_facts t
  match a with
  | ⟨0, _⟩ => show win1_0.index t (0 : Fin 2) * 1000 + 1 * (y 0).val = 1000 * t.val + (y 0).val; rw [r0]; omega
  | ⟨1, _⟩ => show win1_0.index t (1 : Fin 2) * 512 + 1 * (y 1).val = (y 1).val; rw [k0]; omega

theorem read_rows_1 (X : S20000x512.Idx → EReal) (t : Fin cfg1.N) :
    ((cfg1.win 1).blk t).view.read (Elt Ideal) X = rowsFrom (N := 20000) (n := 1000) X (1000 * t.val) (rows_bound t) := by
  funext y
  show X (((cfg1.win 1).blk t).view.emb y) = X _
  refine congrArg X (funext fun a => Fin.ext ?_)
  obtain ⟨r0, k0, r1, k1, r8, k8, r2, k2, r3, k3, r4, k4, r5, k5, r6, k6, r7, k7⟩ := index_facts t
  match a with
  | ⟨0, _⟩ => show win1_1.index t (0 : Fin 2) * 1000 + 1 * (y 0).val = 1000 * t.val + (y 0).val; rw [r1]; omega
  | ⟨1, _⟩ => show win1_1.index t (1 : Fin 2) * 512 + 1 * (y 1).val = (y 1).val; rw [k1]; omega

theorem read_rows_8 (X : S20000x512.Idx → EReal) (t : Fin cfg1.N) :
    ((cfg1.win 8).blk t).view.read (Elt Ideal) X = rowsFrom (N := 20000) (n := 1000) X (1000 * t.val) (rows_bound t) := by
  funext y
  show X (((cfg1.win 8).blk t).view.emb y) = X _
  refine congrArg X (funext fun a => Fin.ext ?_)
  obtain ⟨r0, k0, r1, k1, r8, k8, r2, k2, r3, k3, r4, k4, r5, k5, r6, k6, r7, k7⟩ := index_facts t
  match a with
  | ⟨0, _⟩ => show win1_8.index t (0 : Fin 2) * 1000 + 1 * (y 0).val = 1000 * t.val + (y 0).val; rw [r8]; omega
  | ⟨1, _⟩ => show win1_8.index t (1 : Fin 2) * 512 + 1 * (y 1).val = (y 1).val; rw [k8]; omega

theorem read_whole_2 (X : S512x512.Idx → EReal) (t : Fin cfg1.N) :
    ((cfg1.win 2).blk t).view.read (Elt Ideal) X = X := by
  funext y
  show X (((cfg1.win 2).blk t).view.emb y) = X y
  refine congrArg X (funext fun a => Fin.ext ?_)
  obtain ⟨r0, k0, r1, k1, r8, k8, r2, k2, r3, k3, r4, k4, r5, k5, r6, k6, r7, k7⟩ := index_facts t
  match a with
  | ⟨0, _⟩ => show win1_2.index t (0 : Fin 2) * 512 + 1 * (y 0).val = (y 0).val; rw [r2]; omega
  | ⟨1, _⟩ => show win1_2.index t (1 : Fin 2) * 512 + 1 * (y 1).val = (y 1).val; rw [k2]; omega

theorem read_whole_3 (X : S1x512.Idx → EReal) (t : Fin cfg1.N) :
    ((cfg1.win 3).blk t).view.read (Elt Ideal) X = X := by
  funext y
  show X (((cfg1.win 3).blk t).view.emb y) = X y
  refine congrArg X (funext fun a => Fin.ext ?_)
  obtain ⟨r0, k0, r1, k1, r8, k8, r2, k2, r3, k3, r4, k4, r5, k5, r6, k6, r7, k7⟩ := index_facts t
  match a with
  | ⟨0, _⟩ => show win1_3.index t (0 : Fin 2) * 1 + 1 * (y 0).val = (y 0).val; rw [r3]; omega
  | ⟨1, _⟩ => show win1_3.index t (1 : Fin 2) * 512 + 1 * (y 1).val = (y 1).val; rw [k3]; omega

theorem read_whole_4 (X : S512x512.Idx → EReal) (t : Fin cfg1.N) :
    ((cfg1.win 4).blk t).view.read (Elt Ideal) X = X := by
  funext y
  show X (((cfg1.win 4).blk t).view.emb y) = X y
  refine congrArg X (funext fun a => Fin.ext ?_)
  obtain ⟨r0, k0, r1, k1, r8, k8, r2, k2, r3, k3, r4, k4, r5, k5, r6, k6, r7, k7⟩ := index_facts t
  match a with
  | ⟨0, _⟩ => show win1_4.index t (0 : Fin 2) * 512 + 1 * (y 0).val = (y 0).val; rw [r4]; omega
  | ⟨1, _⟩ => show win1_4.index t (1 : Fin 2) * 512 + 1 * (y 1).val = (y 1).val; rw [k4]; omega

theorem read_whole_5 (X : S1x512.Idx → EReal) (t : Fin cfg1.N) :
    ((cfg1.win 5).blk t).view.read (Elt Ideal) X = X := by
  funext y
  show X (((cfg1.win 5).blk t).view.emb y) = X y
  refine congrArg X (funext fun a => Fin.ext ?_)
  obtain ⟨r0, k0, r1, k1, r8, k8, r2, k2, r3, k3, r4, k4, r5, k5, r6, k6, r7, k7⟩ := index_facts t
  match a with
  | ⟨0, _⟩ => show win1_5.index t (0 : Fin 2) * 1 + 1 * (y 0).val = (y 0).val; rw [r5]; omega
  | ⟨1, _⟩ => show win1_5.index t (1 : Fin 2) * 512 + 1 * (y 1).val = (y 1).val; rw [k5]; omega

theorem read_whole_6 (X : S512x512.Idx → EReal) (t : Fin cfg1.N) :
    ((cfg1.win 6).blk t).view.read (Elt Ideal) X = X := by
  funext y
  show X (((cfg1.win 6).blk t).view.emb y) = X y
  refine congrArg X (funext fun a => Fin.ext ?_)
  obtain ⟨r0, k0, r1, k1, r8, k8, r2, k2, r3, k3, r4, k4, r5, k5, r6, k6, r7, k7⟩ := index_facts t
  match a with
  | ⟨0, _⟩ => show win1_6.index t (0 : Fin 2) * 512 + 1 * (y 0).val = (y 0).val; rw [r6]; omega
  | ⟨1, _⟩ => show win1_6.index t (1 : Fin 2) * 512 + 1 * (y 1).val = (y 1).val; rw [k6]; omega

theorem read_whole_7 (X : S1x512.Idx → EReal) (t : Fin cfg1.N) :
    ((cfg1.win 7).blk t).view.read (Elt Ideal) X = X := by
  funext y
  show X (((cfg1.win 7).blk t).view.emb y) = X y
  refine congrArg X (funext fun a => Fin.ext ?_)
  obtain ⟨r0, k0, r1, k1, r8, k8, r2, k2, r3, k3, r4, k4, r5, k5, r6, k6, r7, k7⟩ := index_facts t
  match a with
  | ⟨0, _⟩ => show win1_7.index t (0 : Fin 2) * 1 + 1 * (y 0).val = (y 0).val; rw [r7]; omega
  | ⟨1, _⟩ => show win1_7.index t (1 : Fin 2) * 512 + 1 * (y 1).val = (y 1).val; rw [k7]; omega

variable (V : (c : Dev nD) → (b : Ref sig .tc) → Buf (Elt Ideal) ((c : Thread nD τ).loc b))

/-! ## The input blocks at a point -/

theorem iblk_0 (c : Dev nD) (t : Fin cfg1.N) :
    iblk1 V c 0 t = rowsFrom (N := 20000) (n := 1000) (V c main_v56 : Mat 20000 512) (1000 * t.val) (rows_bound t) :=
  read_rows_0 _ t
theorem iblk_1 (c : Dev nD) (t : Fin cfg1.N) :
    iblk1 V c 1 t = rowsFrom (N := 20000) (n := 1000) (V c main_arg0 : Mat 20000 512) (1000 * t.val) (rows_bound t) :=
  read_rows_1 _ t
theorem iblk_2 (c : Dev nD) (t : Fin cfg1.N) : iblk1 V c 2 t = (V c main_v58 : Mat 512 512) :=
  read_whole_2 _ t
theorem iblk_3 (c : Dev nD) (t : Fin cfg1.N) : iblk1 V c 3 t = (V c main_v59 : Mat 1 512) :=
  read_whole_3 _ t
theorem iblk_4 (c : Dev nD) (t : Fin cfg1.N) : iblk1 V c 4 t = (V c main_v61 : Mat 512 512) :=
  read_whole_4 _ t
theorem iblk_5 (c : Dev nD) (t : Fin cfg1.N) : iblk1 V c 5 t = (V c main_v62 : Mat 1 512) :=
  read_whole_5 _ t
theorem iblk_6 (c : Dev nD) (t : Fin cfg1.N) : iblk1 V c 6 t = (V c main_v64 : Mat 512 512) :=
  read_whole_6 _ t
theorem iblk_7 (c : Dev nD) (t : Fin cfg1.N) : iblk1 V c 7 t = (V c main_v65 : Mat 1 512) :=
  read_whole_7 _ t

/-! ## The stages of the entry arrays -/

/-- Every node's new vector. -/
abbrev newNode (c : Dev nD) : Mat 20000 512 :=
  nodeUpdate (V c main_v56 : Mat 20000 512) (V c main_arg0 : Mat 20000 512) (V c main_v58 : Mat 512 512) (V c main_v59 : Mat 1 512) (V c main_v61 : Mat 512 512) (V c main_v62 : Mat 1 512) (V c main_v64 : Mat 512 512) (V c main_v65 : Mat 1 512)

/-! ## What a point writes back, the cover, and the arrays after the grid -/

/-- Point t writes back block t of the stage. -/
theorem flushed_newNode (c : Dev nD) (t : Fin cfg1.N) :
    (dat1 V c).flushed 8 t = ((cfg1.win 8).blk t).view.read (Elt Ideal) (newNode V c) := by
  rw [read_rows_8 (newNode V c) t]
  show (cfg1.win 8).cut (grid1.coords t) ((dat1 V c).after 8 t) = _
  rw [after1_8, Body.out1_8_eq, iblk_0, iblk_1, iblk_2, iblk_3, iblk_4, iblk_5, iblk_6, iblk_7,
    nodeUpdate_rowsFrom]
  rfl

/-- Every row lies in the block of the point r / 1000. -/
theorem covered_newNode (i : S20000x512.Idx) :
    ∃ t : Fin cfg1.N, (cfg1.win 8).flush t = true ∧ i ∈ ((cfg1.win 8).blk t).view.set := by
  have h0 : (i 0).val < 20000 := (i 0).isLt
  have h1 : (i 1).val < 512 := (i 1).isLt
  have hN : cfg1.N = 20 := N_1
  have hlt : (i 0).val / 1000 < cfg1.N := by omega
  refine ⟨⟨(i 0).val / 1000, hlt⟩, flush1_8 _, ?_⟩
  show i ∈ ((View.whole main_v66).slice (win1_8.rect ⟨(i 0).val / 1000, hlt⟩)).set
  rw [View.set_slice_whole, Rect.mem_set_unit]
  obtain ⟨r0, k0, r1, k1, r8, k8, r2, k2, r3, k3, r4, k4, r5, k5, r6, k6, r7, k7⟩ := index_facts ⟨(i 0).val / 1000, hlt⟩
  intro a
  match a with
  | ⟨0, _⟩ =>
    show win1_8.index ⟨(i 0).val / 1000, hlt⟩ (0 : Fin 2) * 1000 ≤ (i 0).val
      ∧ (i 0).val < win1_8.index ⟨(i 0).val / 1000, hlt⟩ (0 : Fin 2) * 1000 + 1000
    rw [r8]
    show (i 0).val / 1000 * 1000 ≤ (i 0).val ∧ (i 0).val < (i 0).val / 1000 * 1000 + 1000
    omega
  | ⟨1, _⟩ =>
    show win1_8.index ⟨(i 0).val / 1000, hlt⟩ (1 : Fin 2) * 512 ≤ (i 1).val
      ∧ (i 1).val < win1_8.index ⟨(i 0).val / 1000, hlt⟩ (1 : Fin 2) * 512 + 512
    rw [k8]
    omega

/-- After the grid the output array is the stage of the entry arrays. -/
theorem newNode_array (c : Dev nD) : (dat1 V c).arrAt 8 cfg1.N = newNode V c :=
  (dat1 V c).arrAt_eq_of_cover 8 (newNode V c) (fun t _ => flushed_newNode V c t) (fun i => covered_newNode i)

end Cert.KernelIdeal.NodeRegion

end
-- ==== Proof.Gather.lean ====
/-
  The gathered rows.  The kernel's program gathers a row of the node table per edge end with a guard: where the
  (wrapped) index is outside 0 … 19999 it fills the row with a fixed word instead.  When every entry of the edge
  list is a node number the guard is true on every row, and the guarded gather is the plain gather the reference
  makes, of the same wrapped indices.
-/
import proofs.«401777_j44530220925731_1_alg».proof.Pre_finite_inputs
import proofs.«401777_j44530220925731_1_alg».proof.Proof.Gen.Pre_finite_inputs
import proofs.«401777_j44530220925731_1_alg».proof.Proof.Gen.KernelIdeal.Frame
import proofs.«401777_j44530220925731_1_alg».proof.Proof.Gen.ReferenceIdeal.Read
import Idealize.ShloMosaic.Lib.StableHlo.Predicate
import Idealize.ShloMosaic.Lib.StableHlo.Run
import Idealize.ShloMosaic.Lib.ReduceAll
import Idealize.ShloMosaic.Lib.ValueIdx

set_option maxRecDepth 16384

noncomputable section

namespace Cert.KernelIdeal.Gather

open Cert.KernelIdeal Cert.KernelIdeal.Gen
open Idealize.ShloMosaic Idealize.ShloMosaic.TcCoe Idealize.ShloMosaic.ValueIdx Idealize.SL.Sem

/-- Every entry of the edge list is a node number: at least 0 and below 20000, as signed 32-bit words. -/
def EdgesInRange (e : IVec (⟨2, ![100000, 2]⟩ : Shape) 32) : Prop :=
  ∀ i, IntOp.cmpi .sge (e i) 0#32 = 1#1 ∧ IntOp.cmpi .slt (e i) 20000#32 = 1#1

/-- The precondition's last conjunct, read: the edge list is in range. -/
theorem edgesInRange_of_pre [Cert.Pre_finite_inputs.Facts]
    (x0 : FVec Ideal (⟨2, ![20000, 512]⟩ : Shape) .f32) (x1 : FVec Ideal (⟨2, ![100000, 512]⟩ : Shape) .f32)
    (x2 : IVec (⟨2, ![100000, 2]⟩ : Shape) 32) (x3 : FVec Ideal (⟨2, ![512, 1536]⟩ : Shape) .f32)
    (x4 : FVec Ideal (⟨1, ![512]⟩ : Shape) .f32) (x5 : FVec Ideal (⟨2, ![1536, 512]⟩ : Shape) .f32)
    (x6 : FVec Ideal (⟨1, ![1536]⟩ : Shape) .f32) (x7 : FVec Ideal (⟨2, ![512, 512]⟩ : Shape) .f32)
    (x8 : FVec Ideal (⟨1, ![512]⟩ : Shape) .f32) (x9 : FVec Ideal (⟨2, ![512, 512]⟩ : Shape) .f32)
    (x10 : FVec Ideal (⟨1, ![512]⟩ : Shape) .f32) (x11 : FVec Ideal (⟨2, ![512, 512]⟩ : Shape) .f32)
    (x12 : FVec Ideal (⟨1, ![512]⟩ : Shape) .f32) (x13 : FVec Ideal (⟨2, ![512, 512]⟩ : Shape) .f32)
    (x14 : FVec Ideal (⟨1, ![512]⟩ : Shape) .f32)
    (h : Cert.Pre_finite_inputs.fn (F := Ideal) x0 x1 x2 x3 x4 x5 x6 x7 x8 x9 x10 x11 x12 x13 x14 = fun _ => 1#1) :
    EdgesInRange x2 := by
  have h0 := congrFun h ValueIdx.ix0
  -- the printed chain ends in the conjunction of the earlier conjuncts with the reduction over the edge list
  have h1 : IntOp.andi _ (Host.reduce IntOp.andi
      (andi (cmpi .sge x2 (broadcastInDim Cert.Pre_finite_inputs.S100000x2 ![] Cert.Pre_finite_inputs.Facts.bcast_S_S100000x2 (constantI Cert.Pre_finite_inputs.S_ 32 0#32)))
            (cmpi .slt x2 (broadcastInDim Cert.Pre_finite_inputs.S100000x2 ![] Cert.Pre_finite_inputs.Facts.bcast_S_S100000x2 (constantI Cert.Pre_finite_inputs.S_ 32 20000#32))))
      (constantI Cert.Pre_finite_inputs.S_ 1 1#1) Cert.Pre_finite_inputs.Facts.reducesTo_S100000x2_S_d0_1 Cert.Pre_finite_inputs.Facts.h_S_ ValueIdx.ix0) = 1#1 := h0
  have h2 := (IntOp.andi_eq_one.1 h1).2
  haveI : Subsingleton Cert.Pre_finite_inputs.S_.Idx := ⟨fun a b => funext fun d => d.elim0⟩
  intro i
  have h3 := Host.reduce_andi_all _ _ _ _ _ h2 i
  have h4 : IntOp.andi (IntOp.cmpi .sge (x2 i) 0#32) (IntOp.cmpi .slt (x2 i) 20000#32) = 1#1 := h3
  exact IntOp.andi_eq_one.1 h4

/-! ## Words -/

/-- A word that is at least 0 and below 20000 is not negative, so the wrap (add 20000 to a negative word) leaves
    it, and it is at most 19999. -/
theorem word_inRange (e : BitVec 32) (h0 : IntOp.cmpi .sge e 0#32 = 1#1) (h1 : IntOp.cmpi .slt e 20000#32 = 1#1) :
    Scalar.select (IntOp.cmpi .slt e 0#32) (IntOp.addi e 20000#32) e = e ∧ IntOp.cmpi .sle e 19999#32 = 1#1 := by
  have a0 := IntOp.cmpi_sge.1 h0
  have a1 := IntOp.cmpi_slt.1 h1
  have z : (0#32 : BitVec 32).toInt = 0 := by decide
  have t : (20000#32 : BitVec 32).toInt = 20000 := by decide
  have t' : (19999#32 : BitVec 32).toInt = 19999 := by decide
  constructor
  · have hz : IntOp.cmpi .slt e 0#32 = 0#1 := eq_zero_of_ne_one (fun hc => by have := IntOp.cmpi_slt.1 hc; omega)
    rw [hz, select_zero]
  · exact IntOp.cmpi_sle.2 (by omega)

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and` from 1 of an array of ones is 1 at every index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

/-! ## The two columns of the edge list, the wrapped index, the guard -/

/-- Column 0 of the edge list (the subjects), as a vector. -/
def col0 (e : IVec S100000x2 32) : IVec S100000 32 :=
  shapeCast S100000 (extractStridedSlice S100000x1 ![0, 0] e slices_S100000x2_S100000x1_0_0) shapeCasts_S100000x1_S100000
/-- Column 1 of the edge list (the objects), as a vector. -/
def col1 (e : IVec S100000x2 32) : IVec S100000 32 :=
  shapeCast S100000 (extractStridedSlice S100000x1 ![0, 1] e slices_S100000x2_S100000x1_0_1) shapeCasts_S100000x1_S100000

/-- The index column a gather takes: a negative word has 20000 added, then the vector is set as a column. -/
def wrapped (v : IVec S100000 32) : IVec S100000x1 32 :=
  broadcastInDim S100000x1 ![0] bcast_S100000_S100000x1_0
    (select (cmpi .slt v (broadcastInDim S100000 ![] bcast_S_S100000 (constantI S_ 32 0#32)))
      (addi v (broadcastInDim S100000 ![] bcast_S_S100000 (constantI S_ 32 20000#32))) v)

/-- The guard: per row, whether the index column's word is in 0 … 19999, spread along the row. -/
def inTable (w : IVec S100000x1 32) : IVec S100000x512 1 :=
  broadcastInDim S100000x512 ![0] bcast_S100000_S100000x512_0
    (Host.reduce IntOp.andi
      (andi (cmpi .sge w (broadcastInDim S100000x1 ![] bcast_S_S100000x1 (constantI S_ 32 0#32)))
        (cmpi .sle w (broadcastInDim S100000x1 ![0, 1] bcast_S1x1_S100000x1_0_1 (broadcastInDim S1x1 ![1] bcast_S1_S1x1_1 (constantI S1 32 19999#32)))))
      (constantI S_ 1 1#1) reducesTo_S100000x1_S100000_d1 h_S_)

/-- Every entry of either column is an entry of the edge list. -/
theorem col0_inRange (e : IVec S100000x2 32) (h : EdgesInRange e) (p : S100000.Idx) :
    IntOp.cmpi .sge (col0 e p) 0#32 = 1#1 ∧ IntOp.cmpi .slt (col0 e p) 20000#32 = 1#1 := h _
theorem col1_inRange (e : IVec S100000x2 32) (h : EdgesInRange e) (p : S100000.Idx) :
    IntOp.cmpi .sge (col1 e p) 0#32 = 1#1 ∧ IntOp.cmpi .slt (col1 e p) 20000#32 = 1#1 := h _

/-- On a vector of in-range words the guard is 1 everywhere. -/
theorem inTable_one (v : IVec S100000 32)
    (hv : ∀ p, IntOp.cmpi .sge (v p) 0#32 = 1#1 ∧ IntOp.cmpi .slt (v p) 20000#32 = 1#1) (i : S100000x512.Idx) :
    inTable (wrapped v) i = 1#1 := by
  unfold inTable
  show Host.reduce IntOp.andi _ _ _ _ _ = 1#1
  refine reduce_andi_ones _ _ _ _ (fun _ => rfl) (fun k => ?_) _
  show IntOp.andi (IntOp.cmpi .sge (wrapped v k) 0#32) (IntOp.cmpi .sle (wrapped v k) 19999#32) = 1#1
  unfold wrapped
  show IntOp.andi (IntOp.cmpi .sge (Scalar.select (IntOp.cmpi .slt (v _) 0#32) (IntOp.addi (v _) 20000#32) (v _)) 0#32)
    (IntOp.cmpi .sle (Scalar.select (IntOp.cmpi .slt (v _) 0#32) (IntOp.addi (v _) 20000#32) (v _)) 19999#32) = 1#1
  obtain ⟨h0, h1⟩ := hv _
  obtain ⟨e1, e2⟩ := word_inRange _ h0 h1
  rw [e1, h0, e2]
  decide

/-- So the guarded rows are the gathered rows. -/
theorem guarded_eq (d : GatherDims S20000x512 S100000x1 S100000x512) (x : FVec Ideal S20000x512 .f32) (v : IVec S100000 32)
    (fill : FVec Ideal S100000x512 .f32)
    (hv : ∀ p, IntOp.cmpi .sge (v p) 0#32 = 1#1 ∧ IntOp.cmpi .slt (v p) 20000#32 = 1#1) :
    select (inTable (wrapped v)) (Host.gather d x (wrapped v)) fill = Host.gather d x (wrapped v) := by
  funext i
  rw [select_apply, inTable_one v hv i, select_one]

/-- The reference's subject rows are the gather at the wrapped column 0. -/
theorem ref_v10 (x : FVec Ideal S20000x512 .f32) (e : IVec S100000x2 32) :
    Cert.ReferenceIdeal.Read.val_main_v10 (F := Ideal) x e
      = Host.gather gather_S20000x512_S100000x1_S100000x512_1_0_n_n_0_1_1512 x (wrapped (col0 e)) := by
  unfold Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_c_0
    Cert.ReferenceIdeal.Read.val_main_v5 Cert.ReferenceIdeal.Read.val_main_v4 Cert.ReferenceIdeal.Read.val_main_c
    Cert.ReferenceIdeal.Read.val_main_v1 Cert.ReferenceIdeal.Read.val_main_v0 wrapped col0
  rfl

/-- The reference's object rows are the gather at the wrapped column 1. -/
theorem ref_v17 (x : FVec Ideal S20000x512 .f32) (e : IVec S100000x2 32) :
    Cert.ReferenceIdeal.Read.val_main_v17 (F := Ideal) x e
      = Host.gather gather_S20000x512_S100000x1_S100000x512_1_0_n_n_0_1_1512 x (wrapped (col1 e)) := by
  unfold Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_c_2
    Cert.ReferenceIdeal.Read.val_main_v12 Cert.ReferenceIdeal.Read.val_main_v11 Cert.ReferenceIdeal.Read.val_main_c_1
    Cert.ReferenceIdeal.Read.val_main_v3 Cert.ReferenceIdeal.Read.val_main_v2 wrapped col1
  rfl

/-! ## The guarded rows as one function of the table and the index vector -/

/-- The guarded gather: the gathered row where the guard holds, a fixed word elsewhere. -/
def guarded (x : FVec Ideal S20000x512 .f32) (v : IVec S100000 32) : FVec Ideal S100000x512 .f32 :=
  select (inTable (wrapped v)) (Host.gather gather_S20000x512_S100000x1_S100000x512_1_0_n_n_0_1_1512 x (wrapped v))
    (broadcastInDim S100000x512 ![] bcast_S_S100000x512 (constant (F := Ideal) S_ .f32 0x7FC00000#32))

theorem guarded_inRange (x : FVec Ideal S20000x512 .f32) (v : IVec S100000 32)
    (hv : ∀ p, IntOp.cmpi .sge (v p) 0#32 = 1#1 ∧ IntOp.cmpi .slt (v p) 20000#32 = 1#1) :
    guarded x v = Host.gather gather_S20000x512_S100000x1_S100000x512_1_0_n_n_0_1_1512 x (wrapped v) :=
  guarded_eq _ x v _ hv

/-! ## The host operations before the first region, stretch by stretch, from any contents

A stretch leaves a buffer it does not write as it found it; the buffer it writes holds its operation's value of the
operands' contents. The two gathers' stretches each compute the guarded rows of the table at one column of the edge list;
the narrowing of the rows to the kernel's operand format is the identity on extended reals. -/

section Stretches
variable (X : Valuation τ sig (Elt Ideal))

local macro "untouched" : tactic => `(tactic| (
  refine StableHlo.after_of_forall_not_mem _ _ (List.forall_iff_forall_mem.mp ?_)
  simp only [hostOps0, hostOps0_1, hostOps0_2, hostOps0_3, hostOps0_4, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

theorem s0_v1 : (StableHlo.after (τ := τ) hostOps0 X (Proc.devRef .tc main_v1) : S100000.Idx → BitVec 32)
    = col0 (X (Proc.devRef .tc main_arg2)) := by
  after_results; rfl
theorem s0_v3 : (StableHlo.after (τ := τ) hostOps0 X (Proc.devRef .tc main_v3) : S100000.Idx → BitVec 32)
    = col1 (X (Proc.devRef .tc main_arg2)) := by
  after_results; rfl
theorem s0_arg0 : StableHlo.after (τ := τ) hostOps0 X (Proc.devRef .tc main_arg0) = X (Proc.devRef .tc main_arg0) := by
  untouched

set_option maxHeartbeats 1000000 in
theorem s1_v4 : (StableHlo.after (τ := τ) hostOps0_1 X (Proc.devRef .tc main_v4) : S100000x512.Idx → EReal)
    = guarded (X (Proc.devRef .tc main_arg0)) (X (Proc.devRef .tc main_v1)) := by
  after_results
  simp only [StableHlo.TRef.ofBuf, StableHlo.TRef.toBuf, cast_eq]
  rfl
theorem s1_v3 : StableHlo.after (τ := τ) hostOps0_1 X (Proc.devRef .tc main_v3) = X (Proc.devRef .tc main_v3) := by
  untouched
theorem s1_arg0 : StableHlo.after (τ := τ) hostOps0_1 X (Proc.devRef .tc main_arg0) = X (Proc.devRef .tc main_arg0) := by
  untouched

theorem s2_v5 : (StableHlo.after (τ := τ) hostOps0_2 X (Proc.devRef .tc main_v5) : S100000x512.Idx → EReal)
    = X (Proc.devRef .tc main_v4) := by
  after_results; rfl
theorem s2_v3 : StableHlo.after (τ := τ) hostOps0_2 X (Proc.devRef .tc main_v3) = X (Proc.devRef .tc main_v3) := by
  untouched
theorem s2_arg0 : StableHlo.after (τ := τ) hostOps0_2 X (Proc.devRef .tc main_arg0) = X (Proc.devRef .tc main_arg0) := by
  untouched

set_option maxHeartbeats 1000000 in
theorem s3_v6 : (StableHlo.after (τ := τ) hostOps0_3 X (Proc.devRef .tc main_v6) : S100000x512.Idx → EReal)
    = guarded (X (Proc.devRef .tc main_arg0)) (X (Proc.devRef .tc main_v3)) := by
  after_results
  simp only [StableHlo.TRef.ofBuf, StableHlo.TRef.toBuf, cast_eq]
  rfl
theorem s3_v5 : StableHlo.after (τ := τ) hostOps0_3 X (Proc.devRef .tc main_v5) = X (Proc.devRef .tc main_v5) := by
  untouched

set_option maxHeartbeats 1000000 in
theorem s4_v7 : (StableHlo.after (τ := τ) hostOps0_4 X (Proc.devRef .tc main_v7) : S100000x512.Idx → EReal)
    = X (Proc.devRef .tc main_v6) := by
  after_results; rfl
theorem s4_v5 : StableHlo.after (τ := τ) hostOps0_4 X (Proc.devRef .tc main_v5) = X (Proc.devRef .tc main_v5) := by
  untouched

end Stretches

variable (m : (ℓ : Loc nD τ sig) → Buf (Elt Ideal) ℓ) (ρ : Dev nD → PrngReg)

/-- The subject rows at the region's entry: the guarded rows of the node table at column 0 of the edge list. -/
theorem V5_v5 (c : Dev nD) : (V5 m ρ c main_v5 : S100000x512.Idx → EReal)
    = guarded (m ((c : Thread nD τ).loc main_arg0)) (col0 (m ((c : Thread nD τ).loc main_arg2))) :=
  (s4_v5 (W4 m ρ c)).trans <| (s3_v5 (W3 m ρ c)).trans <| (s2_v5 (W2 m ρ c)).trans <| (s1_v4 (W1 m ρ c)).trans <|
    congrArg₂ guarded (s0_arg0 (W0 m ρ c)) (s0_v1 (W0 m ρ c))

/-- The object rows at the region's entry: the guarded rows of the node table at column 1 of the edge list. -/
theorem V5_v7 (c : Dev nD) : (V5 m ρ c main_v7 : S100000x512.Idx → EReal)
    = guarded (m ((c : Thread nD τ).loc main_arg0)) (col1 (m ((c : Thread nD τ).loc main_arg2))) :=
  (s4_v7 (W4 m ρ c)).trans <| (s3_v6 (W3 m ρ c)).trans <|
    congrArg₂ guarded
      ((s2_arg0 (W2 m ρ c)).trans <| (s1_arg0 (W1 m ρ c)).trans <| s0_arg0 (W0 m ρ c))
      ((s2_v3 (W2 m ρ c)).trans <| (s1_v3 (W1 m ρ c)).trans <| s0_v3 (W0 m ρ c))

/-- At the edge region's entry the subject rows are the reference's gathered subject rows. -/
theorem subjectRows (c : Dev nD) (h : EdgesInRange (m ((c : Thread nD τ).loc main_arg2))) :
    (V5 m ρ c main_v5 : S100000x512.Idx → EReal)
      = Cert.ReferenceIdeal.Read.val_main_v10 (F := Ideal) (m ((c : Thread nD τ).loc main_arg0)) (m ((c : Thread nD τ).loc main_arg2)) := by
  rw [V5_v5, ref_v10]
  exact guarded_inRange _ _ (col0_inRange _ h)

/-- At the edge region's entry the object rows are the reference's gathered object rows. -/
theorem objectRows (c : Dev nD) (h : EdgesInRange (m ((c : Thread nD τ).loc main_arg2))) :
    (V5 m ρ c main_v7 : S100000x512.Idx → EReal)
      = Cert.ReferenceIdeal.Read.val_main_v17 (F := Ideal) (m ((c : Thread nD τ).loc main_arg0)) (m ((c : Thread nD τ).loc main_arg2)) := by
  rw [V5_v7, ref_v17]
  exact guarded_inRange _ _ (col1_inRange _ h)

end Cert.KernelIdeal.Gather

end
-- ==== Proof.Pool.lean ====
/-
  The pooling between the two networks, as one function of what the edges send: each node receives the sum of
  what its edges send it as subject and as object (two accumulating scatters into zero arrays, added), divided by
  the number of edge ends at the node, that number taken at least one.  Both programs compute it with the same
  operations from the same edge list, so it is carried whole and never opened.
-/
import proofs.«401777_j44530220925731_1_alg».proof.Proof.Gen.ReferenceIdeal.Read

noncomputable section

namespace Cert.ReferenceIdeal.Pool

open Cert.ReferenceIdeal Cert.ReferenceIdeal.Gen Cert.ReferenceIdeal.Read Idealize.ShloMosaic Idealize.ShloMosaic.TcCoe Idealize.ShloMosaic.StableHlo

variable {F : FTy → Type} [FloatOps F]

/-- The mean over a node's edge ends of what the edges send: `a` to the subject node of each edge, `b` to its
    object node, `e` the edge list. -/
def pooled (a b : (⟨S100000x512, .f32⟩ : BufTy).Contents (Elt F)) (e : (⟨S100000x2, .i32⟩ : BufTy).Contents (Elt F)) : (⟨S20000x512, .f32⟩ : BufTy).Contents (Elt F) :=
  Host.divf
    (addf (Host.scatterAdd scatter_S20000x512_S100000x1_S100000x512_1_0_0_1 (val_main_v34 (F := F)) (val_main_v35 (F := F) e) a)
      (Host.scatterAdd scatter_S20000x512_S100000x1_S100000x512_1_0_0_1 (val_main_v37 (F := F)) (val_main_v38 (F := F) e) b))
    (val_main_v52 (F := F) e)

/-- The reference pools what its own edge network sends. -/
theorem val_main_v53_eq (x0 : (⟨S20000x512, .f32⟩ : BufTy).Contents (Elt F)) (x1 : (⟨S100000x512, .f32⟩ : BufTy).Contents (Elt F)) (x2 : (⟨S100000x2, .i32⟩ : BufTy).Contents (Elt F))
    (x3 : (⟨S512x1536, .f32⟩ : BufTy).Contents (Elt F)) (x4 : (⟨S512, .f32⟩ : BufTy).Contents (Elt F)) (x5 : (⟨S1536x512, .f32⟩ : BufTy).Contents (Elt F)) (x6 : (⟨S1536, .f32⟩ : BufTy).Contents (Elt F)) :
    val_main_v53 (F := F) x0 x1 x2 x3 x4 x5 x6
      = pooled (val_main_v31 (F := F) x0 x1 x2 x3 x4 x5 x6) (val_main_v33 (F := F) x0 x1 x2 x3 x4 x5 x6) x2 := rfl

end Cert.ReferenceIdeal.Pool

end
-- ==== Proof.HostValues.lean ====
/-
  What the host operations of the kernel's program put in each array a region stages, as a view of an argument:
  a weight block transposed, a bias segment as a row, an argument itself.  And what they make of the edge region's
  two node-bound outputs between the regions: the pooled array.  And where the two results sit at the end.
-/
import proofs.«401777_j44530220925731_1_alg».proof.Proof.Gen.KernelIdeal.Frame
import proofs.«401777_j44530220925731_1_alg».proof.Proof.Stages
import proofs.«401777_j44530220925731_1_alg».proof.Proof.Pool
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostValues

open Cert.KernelIdeal Cert.KernelIdeal.Gen Cert.GraphConv
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The layout operations read whole

Each array a region stages is a short chain of layout operations on one argument: a slice, a transpose, a
recast of a vector as a row, a change of float format (the identity on the extended reals).  Read at an index,
each chain is one of the views of the weights. -/

/-- A block of 512 columns of a 512 × 1536 matrix, transposed: at (l, k) it is the matrix at (k, o + l). -/
theorem read_colBlock (x : Mat 512 1536) (o : Nat) (ho : o + 512 ≤ 1536) (hs : S512x1536.Slices ![0, o] S512x512) :
    (truncf (F := Ideal) (φ := .f32) .bf16 (transpose S512x512 [1, 0] (extractStridedSlice S512x512 ![0, o] x hs) transposes_S512x512_S512x512_1_0) bitsLt_bf16_f32 : Mat 512 512)
      = transp (colBlock x o ho) := by
  funext i
  obtain ⟨l, k, rfl⟩ : ∃ (l : Fin 512) (k : Fin 512), i = ix2 l k := ⟨i 0, i 1, eq_ix2 i⟩
  rw [truncf_apply, transp_apply, colBlock_apply]
  refine (transpose_apply [1, 0] _ transposes_S512x512_S512x512_1_0 (ix2 l k) (ix2 k l) (fun b => match b with
    | ⟨0, _⟩ => rfl
    | ⟨1, _⟩ => rfl)).trans ?_
  exact extractStridedSlice_apply ![0, o] x hs (ix2 k l) _ (fun a => match a with
    | ⟨0, _⟩ => by show k.val = 0 + k.val; omega
    | ⟨1, _⟩ => rfl)

/-- A block of 512 rows of a 1536 × 512 matrix, transposed: at (l, k) it is the matrix at (o + k, l). -/
theorem read_rowBlock (x : Mat 1536 512) (o : Nat) (ho : o + 512 ≤ 1536) (hs : S1536x512.Slices ![o, 0] S512x512) :
    (truncf (F := Ideal) (φ := .f32) .bf16 (transpose S512x512 [1, 0] (extractStridedSlice S512x512 ![o, 0] x hs) transposes_S512x512_S512x512_1_0) bitsLt_bf16_f32 : Mat 512 512)
      = transp (rowBlock x o ho) := by
  funext i
  obtain ⟨l, k, rfl⟩ : ∃ (l : Fin 512) (k : Fin 512), i = ix2 l k := ⟨i 0, i 1, eq_ix2 i⟩
  rw [truncf_apply, transp_apply, rowBlock_apply]
  refine (transpose_apply [1, 0] _ transposes_S512x512_S512x512_1_0 (ix2 l k) (ix2 k l) (fun b => match b with
    | ⟨0, _⟩ => rfl
    | ⟨1, _⟩ => rfl)).trans ?_
  exact extractStridedSlice_apply ![o, 0] x hs (ix2 k l) _ (fun a => match a with
    | ⟨0, _⟩ => rfl
    | ⟨1, _⟩ => by show l.val = 0 + l.val; omega)

/-- A whole 512 × 512 matrix, transposed. -/
theorem read_transp (x : Mat 512 512) :
    (truncf (F := Ideal) (φ := .f32) .bf16 (transpose S512x512 [1, 0] x transposes_S512x512_S512x512_1_0) bitsLt_bf16_f32 : Mat 512 512) = transp x := by
  funext i
  obtain ⟨l, k, rfl⟩ : ∃ (l : Fin 512) (k : Fin 512), i = ix2 l k := ⟨i 0, i 1, eq_ix2 i⟩
  rw [truncf_apply, transp_apply]
  exact transpose_apply [1, 0] x transposes_S512x512_S512x512_1_0 (ix2 l k) (ix2 k l) (fun b => match b with
    | ⟨0, _⟩ => rfl
    | ⟨1, _⟩ => rfl)

/-- A vector of 512 recast as a 1 × 512 row: at (0, k) it is the vector at k. -/
theorem read_asRow (x : Vect 512) :
    (fun i => shapeCast S1x512 x shapeCasts_S512_S1x512 i : Mat 1 512) = asRow x := by
  funext i
  obtain ⟨u, k, rfl⟩ : ∃ (u : Fin 1) (k : Fin 512), i = ix2 u k := ⟨i 0, i 1, eq_ix2 i⟩
  rw [asRow_apply]
  exact shapeCast_a_1a_apply x shapeCasts_S512_S1x512 u k

/-- Entries o … o + 511 of a vector of 1536. -/
theorem read_segment (x : Vect 1536) (o : Nat) (ho : o + 512 ≤ 1536) (hs : S1536.Slices ![o] S512) :
    (extractStridedSlice S512 ![o] x hs : Vect 512) = segment x o ho := by
  funext i
  obtain ⟨k, rfl⟩ : ∃ k : Fin 512, i = ix1 k := ⟨i 0, eq_ix1 i⟩
  rw [segment_apply]
  exact extractStridedSlice_apply ![o] x hs (ix1 k) _ (fun a => match a with
    | ⟨0, _⟩ => rfl)

/-! ## The edge region's entry -/

/-- The predicate rows are the argument. -/
theorem V5_pred (c : Dev nD) : (V5 m ρ c main_arg1 : Mat 100000 512) = (m ((c : Thread nD τ).loc main_arg1)) := by
  show StableHlo.after hostOps0_4 _ (Proc.devRef .tc main_arg1) = _
  after_results

/-- First layer, subject piece: columns 0 … 511 of the weights, input-major. -/
theorem V5_wa (c : Dev nD) : (V5 m ρ c main_v10 : Mat 512 512) = transp (colBlock (m ((c : Thread nD τ).loc main_arg3)) 0 (by omega)) := by
  refine Eq.trans ?_ (read_colBlock (m ((c : Thread nD τ).loc main_arg3)) 0 (by omega) slices_S512x1536_S512x512_0_0)
  show StableHlo.after hostOps0_4 _ (Proc.devRef .tc main_v10) = _
  after_results

/-- First layer, predicate piece: columns 512 … 1023. -/
theorem V5_wb (c : Dev nD) : (V5 m ρ c main_v13 : Mat 512 512) = transp (colBlock (m ((c : Thread nD τ).loc main_arg3)) 512 (by omega)) := by
  refine Eq.trans ?_ (read_colBlock (m ((c : Thread nD τ).loc main_arg3)) 512 (by omega) slices_S512x1536_S512x512_0_512)
  show StableHlo.after hostOps0_4 _ (Proc.devRef .tc main_v13) = _
  after_results

/-- First layer, object piece: columns 1024 … 1535. -/
theorem V5_wc (c : Dev nD) : (V5 m ρ c main_v16 : Mat 512 512) = transp (colBlock (m ((c : Thread nD τ).loc main_arg3)) 1024 (by omega)) := by
  refine Eq.trans ?_ (read_colBlock (m ((c : Thread nD τ).loc main_arg3)) 1024 (by omega) slices_S512x1536_S512x512_0_1024)
  show StableHlo.after hostOps0_4 _ (Proc.devRef .tc main_v16) = _
  after_results

/-- First layer's bias as a row. -/
theorem V5_b1 (c : Dev nD) : (V5 m ρ c main_v17 : Mat 1 512) = asRow (m ((c : Thread nD τ).loc main_arg4)) := by
  refine Eq.trans ?_ (read_asRow (m ((c : Thread nD τ).loc main_arg4)))
  show StableHlo.after hostOps0_4 _ (Proc.devRef .tc main_v17) = _
  after_results
  rfl

/-- Second layer, to the subject: rows 0 … 511 of the weights, input-major. -/
theorem V5_w2a (c : Dev nD) : (V5 m ρ c main_v22 : Mat 512 512) = transp (rowBlock (m ((c : Thread nD τ).loc main_arg5)) 0 (by omega)) := by
  refine Eq.trans ?_ (read_rowBlock (m ((c : Thread nD τ).loc main_arg5)) 0 (by omega) slices_S1536x512_S512x512_0_0)
  show StableHlo.after hostOps0_4 _ (Proc.devRef .tc main_v22) = _
  after_results

/-- Second layer, to the edge: rows 512 … 1023. -/
theorem V5_w2b (c : Dev nD) : (V5 m ρ c main_v24 : Mat 512 512) = transp (rowBlock (m ((c : Thread nD τ).loc main_arg5)) 512 (by omega)) := by
  refine Eq.trans ?_ (read_rowBlock (m ((c : Thread nD τ).loc main_arg5)) 512 (by omega) slices_S1536x512_S512x512_512_0)
  show StableHlo.after hostOps0_4 _ (Proc.devRef .tc main_v24) = _
  after_results

/-- Second layer, to the object: rows 1024 … 1535. -/
theorem V5_w2c (c : Dev nD) : (V5 m ρ c main_v26 : Mat 512 512) = transp (rowBlock (m ((c : Thread nD τ).loc main_arg5)) 1024 (by omega)) := by
  refine Eq.trans ?_ (read_rowBlock (m ((c : Thread nD τ).loc main_arg5)) 1024 (by omega) slices_S1536x512_S512x512_1024_0)
  show StableHlo.after hostOps0_4 _ (Proc.devRef .tc main_v26) = _
  after_results

/-- Second layer's bias, entries 0 … 511, as a row. -/
theorem V5_b2a (c : Dev nD) : (V5 m ρ c main_v28 : Mat 1 512) = asRow (segment (m ((c : Thread nD τ).loc main_arg6)) 0 (by omega)) := by
  refine Eq.trans ?_ ((read_asRow _).trans (congrArg asRow (read_segment (m ((c : Thread nD τ).loc main_arg6)) 0 (by omega) slices_S1536_S512_0)))
  show StableHlo.after hostOps0_4 _ (Proc.devRef .tc main_v28) = _
  after_results
  rfl

/-- Second layer's bias, entries 512 … 1023. -/
theorem V5_b2b (c : Dev nD) : (V5 m ρ c main_v30 : Mat 1 512) = asRow (segment (m ((c : Thread nD τ).loc main_arg6)) 512 (by omega)) := by
  refine Eq.trans ?_ ((read_asRow _).trans (congrArg asRow (read_segment (m ((c : Thread nD τ).loc main_arg6)) 512 (by omega) slices_S1536_S512_512)))
  show StableHlo.after hostOps0_4 _ (Proc.devRef .tc main_v30) = _
  after_results
  rfl

/-- Second layer's bias, entries 1024 … 1535. -/
theorem V5_b2c (c : Dev nD) : (V5 m ρ c main_v32 : Mat 1 512) = asRow (segment (m ((c : Thread nD τ).loc main_arg6)) 1024 (by omega)) := by
  refine Eq.trans ?_ ((read_asRow _).trans (congrArg asRow (read_segment (m ((c : Thread nD τ).loc main_arg6)) 1024 (by omega) slices_S1536_S512_1024)))
  show StableHlo.after hostOps0_4 _ (Proc.devRef .tc main_v32) = _
  after_results
  rfl

/-- The predicate's residual projection, input-major. -/
theorem V5_pp (c : Dev nD) : (V5 m ρ c main_v34 : Mat 512 512) = transp (m ((c : Thread nD τ).loc main_arg13)) := by
  refine Eq.trans ?_ (read_transp (m ((c : Thread nD τ).loc main_arg13)))
  show StableHlo.after hostOps0_4 _ (Proc.devRef .tc main_v34) = _
  after_results

/-- Its bias as a row. -/
theorem V5_pb (c : Dev nD) : (V5 m ρ c main_v35 : Mat 1 512) = asRow (m ((c : Thread nD τ).loc main_arg14)) := by
  refine Eq.trans ?_ (read_asRow (m ((c : Thread nD τ).loc main_arg14)))
  show StableHlo.after hostOps0_4 _ (Proc.devRef .tc main_v35) = _
  after_results
  rfl

/-! ## The arguments at the edge region's exit

No host operation writes an argument and the edge region writes none of these back, so each holds its launch contents. -/

theorem W6_arg0 (c : Dev nD) : W6 m ρ c (Proc.devRef .tc main_arg0) = m ((c : Thread nD τ).loc main_arg0) := by
  rw [W6_of_ne m ρ c main_arg0 (by decide)]
  show StableHlo.after hostOps0_4 _ (Proc.devRef .tc main_arg0) = _
  after_results

theorem W6_arg7 (c : Dev nD) : W6 m ρ c (Proc.devRef .tc main_arg7) = m ((c : Thread nD τ).loc main_arg7) := by
  rw [W6_of_ne m ρ c main_arg7 (by decide)]
  show StableHlo.after hostOps0_4 _ (Proc.devRef .tc main_arg7) = _
  after_results

theorem W6_arg8 (c : Dev nD) : W6 m ρ c (Proc.devRef .tc main_arg8) = m ((c : Thread nD τ).loc main_arg8) := by
  rw [W6_of_ne m ρ c main_arg8 (by decide)]
  show StableHlo.after hostOps0_4 _ (Proc.devRef .tc main_arg8) = _
  after_results

theorem W6_arg9 (c : Dev nD) : W6 m ρ c (Proc.devRef .tc main_arg9) = m ((c : Thread nD τ).loc main_arg9) := by
  rw [W6_of_ne m ρ c main_arg9 (by decide)]
  show StableHlo.after hostOps0_4 _ (Proc.devRef .tc main_arg9) = _
  after_results

theorem W6_arg10 (c : Dev nD) : W6 m ρ c (Proc.devRef .tc main_arg10) = m ((c : Thread nD τ).loc main_arg10) := by
  rw [W6_of_ne m ρ c main_arg10 (by decide)]
  show StableHlo.after hostOps0_4 _ (Proc.devRef .tc main_arg10) = _
  after_results

theorem W6_arg11 (c : Dev nD) : W6 m ρ c (Proc.devRef .tc main_arg11) = m ((c : Thread nD τ).loc main_arg11) := by
  rw [W6_of_ne m ρ c main_arg11 (by decide)]
  show StableHlo.after hostOps0_4 _ (Proc.devRef .tc main_arg11) = _
  after_results

theorem W6_arg12 (c : Dev nD) : W6 m ρ c (Proc.devRef .tc main_arg12) = m ((c : Thread nD τ).loc main_arg12) := by
  rw [W6_of_ne m ρ c main_arg12 (by decide)]
  show StableHlo.after hostOps0_4 _ (Proc.devRef .tc main_arg12) = _
  after_results

/-- The subject column of the edge list, as a vector: the host's slice and recast of the edge list, still there at the
    edge region's exit. -/
theorem W6_v1 (c : Dev nD) :
    W6 m ρ c (Proc.devRef .tc main_v1) = Cert.ReferenceIdeal.Read.val_main_v1 (F := Ideal) (m ((c : Thread nD τ).loc main_arg2)) := by
  rw [W6_of_ne m ρ c main_v1 (by decide)]
  show StableHlo.after hostOps0_4 _ (Proc.devRef .tc main_v1) = _
  after_results
  rfl

/-- The object column likewise. -/
theorem W6_v3 (c : Dev nD) :
    W6 m ρ c (Proc.devRef .tc main_v3) = Cert.ReferenceIdeal.Read.val_main_v3 (F := Ideal) (m ((c : Thread nD τ).loc main_arg2)) := by
  rw [W6_of_ne m ρ c main_v3 (by decide)]
  show StableHlo.after hostOps0_4 _ (Proc.devRef .tc main_v3) = _
  after_results
  rfl

/-! ## The node region's entry -/

/-- The node rows are the argument. -/
theorem V7_obj (c : Dev nD) : (V7 m ρ c main_arg0 : Mat 20000 512) = (m ((c : Thread nD τ).loc main_arg0)) := by
  show StableHlo.after hostOps1 _ (Proc.devRef .tc main_arg0) = _
  after_results
  exact W6_arg0 m ρ c

/-- First layer of the node network, input-major. -/
theorem V7_v1 (c : Dev nD) : (V7 m ρ c main_v58 : Mat 512 512) = transp (m ((c : Thread nD τ).loc main_arg7)) := by
  refine Eq.trans ?_ (read_transp (m ((c : Thread nD τ).loc main_arg7)))
  show StableHlo.after hostOps1 _ (Proc.devRef .tc main_v58) = _
  after_results
  rw [W6_arg7 m ρ c]

/-- Its bias as a row. -/
theorem V7_c1 (c : Dev nD) : (V7 m ρ c main_v59 : Mat 1 512) = asRow (m ((c : Thread nD τ).loc main_arg8)) := by
  refine Eq.trans ?_ (read_asRow (m ((c : Thread nD τ).loc main_arg8)))
  show StableHlo.after hostOps1 _ (Proc.devRef .tc main_v59) = _
  after_results
  rw [W6_arg8 m ρ c]
  rfl

/-- Second layer of the node network, input-major. -/
theorem V7_v2 (c : Dev nD) : (V7 m ρ c main_v61 : Mat 512 512) = transp (m ((c : Thread nD τ).loc main_arg9)) := by
  refine Eq.trans ?_ (read_transp (m ((c : Thread nD τ).loc main_arg9)))
  show StableHlo.after hostOps1 _ (Proc.devRef .tc main_v61) = _
  after_results
  rw [W6_arg9 m ρ c]

/-- Its bias as a row. -/
theorem V7_c2 (c : Dev nD) : (V7 m ρ c main_v62 : Mat 1 512) = asRow (m ((c : Thread nD τ).loc main_arg10)) := by
  refine Eq.trans ?_ (read_asRow (m ((c : Thread nD τ).loc main_arg10)))
  show StableHlo.after hostOps1 _ (Proc.devRef .tc main_v62) = _
  after_results
  rw [W6_arg10 m ρ c]
  rfl

/-- The node's residual projection, input-major. -/
theorem V7_po (c : Dev nD) : (V7 m ρ c main_v64 : Mat 512 512) = transp (m ((c : Thread nD τ).loc main_arg11)) := by
  refine Eq.trans ?_ (read_transp (m ((c : Thread nD τ).loc main_arg11)))
  show StableHlo.after hostOps1 _ (Proc.devRef .tc main_v64) = _
  after_results
  rw [W6_arg11 m ρ c]

/-- Its bias as a row. -/
theorem V7_pbo (c : Dev nD) : (V7 m ρ c main_v65 : Mat 1 512) = asRow (m ((c : Thread nD τ).loc main_arg12)) := by
  refine Eq.trans ?_ (read_asRow (m ((c : Thread nD τ).loc main_arg12)))
  show StableHlo.after hostOps1 _ (Proc.devRef .tc main_v65) = _
  after_results
  rw [W6_arg12 m ρ c]
  rfl

/-- The pooled rows: the shared pooling of what the edge region left in its two node-bound outputs. -/
theorem V7_pooled (c : Dev nD) :
    (V7 m ρ c main_v56 : Mat 20000 512)
      = Cert.ReferenceIdeal.Pool.pooled (F := Ideal) (W6 m ρ c (Proc.devRef .tc main_v36_0)) (W6 m ρ c (Proc.devRef .tc main_v36_2))
          (m ((c : Thread nD τ).loc main_arg2)) := by
  show StableHlo.after hostOps1 _ (Proc.devRef .tc main_v56) = _
  after_results_simp
  rw [W6_v1 m ρ c, W6_v3 m ρ c]
  generalize W6 m ρ c (Proc.devRef .tc main_v36_0) = a
  generalize W6 m ρ c (Proc.devRef .tc main_v36_2) = b
  generalize m ((c : Thread nD τ).loc main_arg2) = e
  rfl

/-! ## Where the results sit -/

/-- The new edge vectors at the end are what the edge region left in its second output: nothing later writes it. -/
theorem W8_newEdge (c : Dev nD) :
    W8 m ρ c (Proc.devRef .tc main_v36_1) = (dat0 (V5 m ρ) c).arrAt 16 cfg0.N := by
  rw [W8_of_ne m ρ c main_v36_1 (by decide)]
  refine Eq.trans ?_ (W6_arr m ρ c 16)
  show StableHlo.after hostOps1 _ (Proc.devRef .tc main_v36_1) = _
  after_results

end Cert.KernelIdeal.HostValues

end
-- ==== Proof.RefStages.lean ====
/-
  The reference's program at the extended reals, as the stages of Proof/Stages.lean.

  The reference joins the three 512-column pieces of an edge's input into one row of 1536 and multiplies by the whole
  first-layer matrix: a sum over 1536 columns, which is the three sums over 512 added left to right.  Its second layer
  is one product with 1536 output columns, of which each of the three results takes its own 512; the kernel's program
  multiplies by the three row blocks separately.  Sums and products of extended reals commute and associate, and that
  is all the regrouping needs.
-/
import proofs.«401777_j44530220925731_1_alg».proof.Proof.Gen.ReferenceIdeal.Read
import proofs.«401777_j44530220925731_1_alg».proof.Proof.Stages
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.ReferenceIdeal.Stages

open Cert.ReferenceIdeal Cert.ReferenceIdeal.Gen Cert.ReferenceIdeal.Read Cert.GraphConv
open Idealize.ShloMosaic Idealize.ShloMosaic.TcCoe Idealize.ShloMosaic.ValueIdx Idealize.ShloMosaic.StableHlo

/-! ## Sums and indices -/

/-- A sum over 1536 columns is the three sums over 512, added left to right. -/
private theorem sum_1536 {M : Type*} [AddCommMonoid M] (f : Fin 1536 → M) :
    ∑ k : Fin 1536, f k
      = (∑ k : Fin 512, f ⟨k.val, by omega⟩ + ∑ k : Fin 512, f ⟨512 + k.val, by omega⟩)
          + ∑ k : Fin 512, f ⟨1024 + k.val, by omega⟩ := by
  have h1 := Fin.sum_univ_add (a := 1024) (b := 512) f
  have h2 := Fin.sum_univ_add (a := 512) (b := 512) (fun i : Fin 1024 => f (Fin.castAdd 512 i))
  rw [h1, h2]
  rfl

/-- Two rank-2 indices with the same coordinates are the same index. -/
private theorem idx2_ext {a b : Nat} (i j : (⟨2, ![a, b]⟩ : Shape).Idx) (h0 : (i 0).val = (j 0).val) (h1 : (i 1).val = (j 1).val) :
    i = j := by
  funext d
  match d with
  | ⟨0, _⟩ => exact Fin.ext h0
  | ⟨1, _⟩ => exact Fin.ext h1

/-- Two rank-1 indices with the same coordinate are the same index. -/
private theorem idx1_ext {a : Nat} (i j : (⟨1, ![a]⟩ : Shape).Idx) (h0 : (i 0).val = (j 0).val) : i = j := by
  funext d
  match d with
  | ⟨0, _⟩ => exact Fin.ext h0

/-! ## The joined row of 1536 columns, read in each of its three pieces

Column c of the joined row is column c of the subject row for c < 512, column c − 512 of the predicate row for
512 ≤ c < 1024, and column c − 1024 of the object row from 1024 on. -/

section Cat
variable {α : Type} (a b c : S100000x512.Idx → α)

private theorem cat_apply_0 (r : Fin 100000) (j : Fin 512) (k : Fin 512) (h : k.val < 1536) :
    concatenate S100000x1536 1 [⟨S100000x512, a⟩, ⟨S100000x512, b⟩, ⟨S100000x512, c⟩]
      concatenates_S100000x512_S100000x512_S100000x512_S100000x1536_d1 (lidx_main_v20 (ix2 r j) ⟨k.val, h⟩) = a (ix2 r k) := by
  refine concatenate_apply_piece (t := S100000x1536) (a := 1) [⟨S100000x512, a⟩, ⟨S100000x512, b⟩, ⟨S100000x512, c⟩]
    concatenates_S100000x512_S100000x512_S100000x512_S100000x1536_d1 (lidx_main_v20 (ix2 r j) ⟨k.val, h⟩) 0
    (by show (0 : Nat) < 3; decide) S100000x512 a rfl rfl 0 rfl (ix2 r k) ?_ ?_
  · intro d hd
    match d with
    | ⟨0, _⟩ => rfl
    | ⟨1, _⟩ => exact absurd rfl hd
  · exact Nat.zero_add _

private theorem cat_apply_1 (r : Fin 100000) (j : Fin 512) (k : Fin 512) (h : 512 + k.val < 1536) :
    concatenate S100000x1536 1 [⟨S100000x512, a⟩, ⟨S100000x512, b⟩, ⟨S100000x512, c⟩]
      concatenates_S100000x512_S100000x512_S100000x512_S100000x1536_d1 (lidx_main_v20 (ix2 r j) ⟨512 + k.val, h⟩) = b (ix2 r k) := by
  refine concatenate_apply_piece (t := S100000x1536) (a := 1) [⟨S100000x512, a⟩, ⟨S100000x512, b⟩, ⟨S100000x512, c⟩]
    concatenates_S100000x512_S100000x512_S100000x512_S100000x1536_d1 (lidx_main_v20 (ix2 r j) ⟨512 + k.val, h⟩) 1
    (by show (1 : Nat) < 3; decide) S100000x512 b rfl rfl 512 rfl (ix2 r k) ?_ rfl
  intro d hd
  match d with
  | ⟨0, _⟩ => rfl
  | ⟨1, _⟩ => exact absurd rfl hd

private theorem cat_apply_2 (r : Fin 100000) (j : Fin 512) (k : Fin 512) (h : 1024 + k.val < 1536) :
    concatenate S100000x1536 1 [⟨S100000x512, a⟩, ⟨S100000x512, b⟩, ⟨S100000x512, c⟩]
      concatenates_S100000x512_S100000x512_S100000x512_S100000x1536_d1 (lidx_main_v20 (ix2 r j) ⟨1024 + k.val, h⟩) = c (ix2 r k) := by
  refine concatenate_apply_piece (t := S100000x1536) (a := 1) [⟨S100000x512, a⟩, ⟨S100000x512, b⟩, ⟨S100000x512, c⟩]
    concatenates_S100000x512_S100000x512_S100000x512_S100000x1536_d1 (lidx_main_v20 (ix2 r j) ⟨1024 + k.val, h⟩) 2
    (by show (2 : Nat) < 3; decide) S100000x512 c rfl rfl 1024 rfl (ix2 r k) ?_ rfl
  intro d hd
  match d with
  | ⟨0, _⟩ => rfl
  | ⟨1, _⟩ => exact absurd rfl hd

end Cat

/-! ## The hidden rows -/

/-- The edge network's hidden rows, from the reference's gathered rows and the first layer's three column blocks. -/
abbrev hidden (x0 : (⟨S20000x512, .f32⟩ : BufTy).Contents (Elt Ideal)) (x1 : (⟨S100000x512, .f32⟩ : BufTy).Contents (Elt Ideal)) (x2 : (⟨S100000x2, .i32⟩ : BufTy).Contents (Elt Ideal))
    (x3 : (⟨S512x1536, .f32⟩ : BufTy).Contents (Elt Ideal)) (x4 : (⟨S512, .f32⟩ : BufTy).Contents (Elt Ideal)) : Mat 100000 512 :=
  edgeHidden (val_main_v10 (F := Ideal) x0 x2) x1 (val_main_v17 (F := Ideal) x0 x2)
    (transp (colBlock x3 0 (by omega))) (transp (colBlock x3 512 (by omega))) (transp (colBlock x3 1024 (by omega))) (asRow x4)

/-- The reference's rectified first layer is the hidden stage: its sum over the 1536 joined columns is the three sums
    over 512, each piece of the joined row against its own column block of the weights. -/
theorem hidden_eq (x0 : (⟨S20000x512, .f32⟩ : BufTy).Contents (Elt Ideal)) (x1 : (⟨S100000x512, .f32⟩ : BufTy).Contents (Elt Ideal)) (x2 : (⟨S100000x2, .i32⟩ : BufTy).Contents (Elt Ideal))
    (x3 : (⟨S512x1536, .f32⟩ : BufTy).Contents (Elt Ideal)) (x4 : (⟨S512, .f32⟩ : BufTy).Contents (Elt Ideal)) :
    val_main_v24 (F := Ideal) x0 x1 x2 x3 x4 = hidden x0 x1 x2 x3 x4 := by
  funext i
  obtain ⟨r, j, rfl⟩ : ∃ (r : Fin 100000) (j : Fin 512), i = ix2 r j := ⟨i 0, i 1, eq_ix2 i⟩
  rw [val_main_v24_apply, val_main_v23_apply, val_main_v20_apply, val_main_v22_apply, val_main_v21_apply,
    val_main_call0_v0_apply, val_main_call0_cst_apply, sum_1536]
  unfold hidden val_main_v18
  rw [edgeHidden_apply]
  generalize val_main_v10 (F := Ideal) x0 x2 = gs
  generalize val_main_v17 (F := Ideal) x0 x2 = go
  refine congrArg₂ max (congrArg₂ (· + ·) (congrArg₂ (· + ·) (congrArg₂ (· + ·) ?_ ?_) ?_) ?_) rfl
  · refine Finset.sum_congr rfl fun k _ => ?_
    rw [val_main_v19_apply, cat_apply_0, transp_apply, colBlock_apply]
    exact congrArg (gs (ix2 r k) * ·) (congrArg x3 (idx2_ext _ _ rfl (Nat.zero_add _).symm))
  · refine Finset.sum_congr rfl fun k _ => ?_
    rw [val_main_v19_apply, cat_apply_1, transp_apply, colBlock_apply]
    exact congrArg (x1 (ix2 r k) * ·) (congrArg x3 (idx2_ext _ _ rfl rfl))
  · refine Finset.sum_congr rfl fun k _ => ?_
    rw [val_main_v19_apply, cat_apply_2, transp_apply, colBlock_apply]
    exact congrArg (go (ix2 r k) * ·) (congrArg x3 (idx2_ext _ _ rfl rfl))
  · rw [asRow_apply]
    exact congrArg x4 (idx1_ext _ _ rfl)

/-! ## The second layer, one block of 512 output columns at a time -/

/-- Column o + j of the reference's rectified second layer is column j of the layer against rows o … o + 511 of its
    weights and entries o … o + 511 of its bias. -/
theorem second_apply (x0 : (⟨S20000x512, .f32⟩ : BufTy).Contents (Elt Ideal)) (x1 : (⟨S100000x512, .f32⟩ : BufTy).Contents (Elt Ideal)) (x2 : (⟨S100000x2, .i32⟩ : BufTy).Contents (Elt Ideal))
    (x3 : (⟨S512x1536, .f32⟩ : BufTy).Contents (Elt Ideal)) (x4 : (⟨S512, .f32⟩ : BufTy).Contents (Elt Ideal)) (x5 : (⟨S1536x512, .f32⟩ : BufTy).Contents (Elt Ideal)) (x6 : (⟨S1536, .f32⟩ : BufTy).Contents (Elt Ideal))
    (o : Nat) (ho : o + 512 ≤ 1536) (r : Fin 100000) (j : Fin 512) (i' : S100000x1536.Idx)
    (h0 : (i' 0).val = r.val) (h1 : (i' 1).val = o + j.val) :
    val_main_v30 (F := Ideal) x0 x1 x2 x3 x4 x5 x6 i'
      = edgeToNode (hidden x0 x1 x2 x3 x4) (transp (rowBlock x5 o ho)) (asRow (segment x6 o ho)) (ix2 r j) := by
  rw [val_main_v30_apply, val_main_v29_apply, val_main_v26_apply, val_main_v28_apply, val_main_v27_apply,
    val_main_call1_v0_apply, val_main_call1_cst_apply, edgeToNode_apply, hidden_eq]
  refine congrArg₂ max (congrArg₂ (· + ·) (Finset.sum_congr rfl fun k _ => ?_) ?_) rfl
  · rw [val_main_v25_apply, transp_apply, rowBlock_apply]
    exact congrArg₂ (· * ·) (congrArg (hidden x0 x1 x2 x3 x4) (idx2_ext _ _ h0 rfl)) (congrArg x5 (idx2_ext _ _ h1 rfl))
  · rw [asRow_apply, segment_apply]
    exact congrArg x6 (idx1_ext _ _ h1)

/-! ## The reference's four results -/

/-- What the reference's edges send to their subject nodes. -/
theorem toSubject_eq (x0 : (⟨S20000x512, .f32⟩ : BufTy).Contents (Elt Ideal)) (x1 : (⟨S100000x512, .f32⟩ : BufTy).Contents (Elt Ideal)) (x2 : (⟨S100000x2, .i32⟩ : BufTy).Contents (Elt Ideal))
    (x3 : (⟨S512x1536, .f32⟩ : BufTy).Contents (Elt Ideal)) (x4 : (⟨S512, .f32⟩ : BufTy).Contents (Elt Ideal)) (x5 : (⟨S1536x512, .f32⟩ : BufTy).Contents (Elt Ideal)) (x6 : (⟨S1536, .f32⟩ : BufTy).Contents (Elt Ideal)) :
    val_main_v31 (F := Ideal) x0 x1 x2 x3 x4 x5 x6
      = edgeToNode (hidden x0 x1 x2 x3 x4) (transp (rowBlock x5 0 (by omega))) (asRow (segment x6 0 (by omega))) := by
  funext i
  obtain ⟨r, j, rfl⟩ : ∃ (r : Fin 100000) (j : Fin 512), i = ix2 r j := ⟨i 0, i 1, eq_ix2 i⟩
  rw [val_main_v31_apply]
  exact second_apply x0 x1 x2 x3 x4 x5 x6 0 (by omega) r j (idx_main_v31 (ix2 r j)) rfl (Nat.zero_add _).symm

/-- What the reference's edges send to their object nodes. -/
theorem toObject_eq (x0 : (⟨S20000x512, .f32⟩ : BufTy).Contents (Elt Ideal)) (x1 : (⟨S100000x512, .f32⟩ : BufTy).Contents (Elt Ideal)) (x2 : (⟨S100000x2, .i32⟩ : BufTy).Contents (Elt Ideal))
    (x3 : (⟨S512x1536, .f32⟩ : BufTy).Contents (Elt Ideal)) (x4 : (⟨S512, .f32⟩ : BufTy).Contents (Elt Ideal)) (x5 : (⟨S1536x512, .f32⟩ : BufTy).Contents (Elt Ideal)) (x6 : (⟨S1536, .f32⟩ : BufTy).Contents (Elt Ideal)) :
    val_main_v33 (F := Ideal) x0 x1 x2 x3 x4 x5 x6
      = edgeToNode (hidden x0 x1 x2 x3 x4) (transp (rowBlock x5 1024 (by omega))) (asRow (segment x6 1024 (by omega))) := by
  funext i
  obtain ⟨r, j, rfl⟩ : ∃ (r : Fin 100000) (j : Fin 512), i = ix2 r j := ⟨i 0, i 1, eq_ix2 i⟩
  rw [val_main_v33_apply]
  exact second_apply x0 x1 x2 x3 x4 x5 x6 1024 (by omega) r j (idx_main_v33 (ix2 r j)) rfl rfl

/-- The reference's new edge vectors. -/
theorem newEdge_eq (x0 : (⟨S20000x512, .f32⟩ : BufTy).Contents (Elt Ideal)) (x1 : (⟨S100000x512, .f32⟩ : BufTy).Contents (Elt Ideal)) (x2 : (⟨S100000x2, .i32⟩ : BufTy).Contents (Elt Ideal))
    (x3 : (⟨S512x1536, .f32⟩ : BufTy).Contents (Elt Ideal)) (x4 : (⟨S512, .f32⟩ : BufTy).Contents (Elt Ideal)) (x5 : (⟨S1536x512, .f32⟩ : BufTy).Contents (Elt Ideal)) (x6 : (⟨S1536, .f32⟩ : BufTy).Contents (Elt Ideal))
    (x13 : (⟨S512x512, .f32⟩ : BufTy).Contents (Elt Ideal)) (x14 : (⟨S512, .f32⟩ : BufTy).Contents (Elt Ideal)) :
    val_main_v77 (F := Ideal) x0 x1 x2 x3 x4 x5 x6 x13 x14
      = edgeToEdge (hidden x0 x1 x2 x3 x4) x1 (transp (rowBlock x5 512 (by omega))) (asRow (segment x6 512 (by omega)))
          (transp x13) (asRow x14) := by
  funext i
  obtain ⟨r, j, rfl⟩ : ∃ (r : Fin 100000) (j : Fin 512), i = ix2 r j := ⟨i 0, i 1, eq_ix2 i⟩
  rw [val_main_v77_apply, val_main_v74_apply, val_main_v32_apply, val_main_v73_apply, val_main_v76_apply, val_main_v75_apply,
    second_apply x0 x1 x2 x3 x4 x5 x6 512 (by omega) r j (idx_main_v32 (ix2 r j)) rfl rfl, edgeToEdge_apply, edgeToNode_apply,
    Ideal.addf_def, Ideal.addf_def, add_assoc]
  refine congrArg₂ (· + ·) rfl (congrArg₂ (· + ·) (Finset.sum_congr rfl fun k _ => ?_) ?_)
  · rw [val_main_v72_apply, transp_apply]
    exact congrArg₂ (· * ·) (congrArg x1 (idx2_ext _ _ rfl rfl)) (congrArg x13 (idx2_ext _ _ rfl rfl))
  · rw [asRow_apply]
    exact congrArg x14 (idx1_ext _ _ rfl)

/-- The reference's new node vectors, over its pooled rows. -/
theorem newNode_eq (x0 : (⟨S20000x512, .f32⟩ : BufTy).Contents (Elt Ideal)) (x1 : (⟨S100000x512, .f32⟩ : BufTy).Contents (Elt Ideal)) (x2 : (⟨S100000x2, .i32⟩ : BufTy).Contents (Elt Ideal))
    (x3 : (⟨S512x1536, .f32⟩ : BufTy).Contents (Elt Ideal)) (x4 : (⟨S512, .f32⟩ : BufTy).Contents (Elt Ideal)) (x5 : (⟨S1536x512, .f32⟩ : BufTy).Contents (Elt Ideal)) (x6 : (⟨S1536, .f32⟩ : BufTy).Contents (Elt Ideal))
    (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) :
    val_main_v71 (F := Ideal) x0 x1 x2 x3 x4 x5 x6 x7 x8 x9 x10 x11 x12
      = nodeUpdate (val_main_v53 (F := Ideal) x0 x1 x2 x3 x4 x5 x6) x0 (transp x7) (asRow x8) (transp x9) (asRow x10)
          (transp x11) (asRow x12) := by
  funext i
  obtain ⟨r, j, rfl⟩ : ∃ (r : Fin 20000) (j : Fin 512), i = ix2 r j := ⟨i 0, i 1, eq_ix2 i⟩
  rw [val_main_v71_apply, val_main_v68_apply, val_main_v65_apply, val_main_v64_apply, val_main_v61_apply, val_main_v63_apply,
    val_main_v62_apply, val_main_call3_v0_apply, val_main_call3_cst_apply, val_main_v67_apply, val_main_v70_apply,
    val_main_v69_apply, nodeUpdate_apply, Ideal.addf_def, Ideal.addf_def, add_assoc]
  refine congrArg₂ (· + ·) (congrArg₂ max (congrArg₂ (· + ·) (Finset.sum_congr rfl fun k _ => ?_) ?_) rfl)
    (congrArg₂ (· + ·) (Finset.sum_congr rfl fun k _ => ?_) ?_)
  · rw [val_main_v59_apply, val_main_v58_apply, val_main_v55_apply, val_main_v57_apply, val_main_v56_apply,
      val_main_call2_v0_apply, val_main_call2_cst_apply, val_main_v60_apply, transp_apply]
    generalize val_main_v53 (F := Ideal) x0 x1 x2 x3 x4 x5 x6 = pooled
    refine congrArg₂ (· * ·) (congrArg₂ max (congrArg₂ (· + ·) (Finset.sum_congr rfl fun l _ => ?_) ?_) rfl)
      (congrArg x9 (idx2_ext _ _ rfl rfl))
    · rw [val_main_v54_apply, transp_apply]
      exact congrArg₂ (· * ·) (congrArg pooled (idx2_ext _ _ rfl rfl)) (congrArg x7 (idx2_ext _ _ rfl rfl))
    · rw [asRow_apply]
      exact congrArg x8 (idx1_ext _ _ rfl)
  · rw [asRow_apply]
    exact congrArg x10 (idx1_ext _ _ rfl)
  · rw [val_main_v66_apply, transp_apply]
    exact congrArg₂ (· * ·) (congrArg x0 (idx2_ext _ _ rfl rfl)) (congrArg x11 (idx2_ext _ _ rfl rfl))
  · rw [asRow_apply]
    exact congrArg x12 (idx1_ext _ _ rfl)

end Cert.ReferenceIdeal.Stages

end
-- ==== Proof.Results.lean ====
/-
  The kernel program's two results as the reference's.

  New edge vectors: the edge region's second output; nothing later writes it.  New node vectors: the node region's
  output, the node update of the pooled rows, which are the shared pooling of the edge region's first and third
  outputs.  Each region's output is the stage of the arrays at its entry (the region modules); at the entries the
  gathered rows are the reference's gathered rows (the edge list being in range), the weights are the views of the
  arguments the stages take, and the reference's own results are the same stages of the same arrays.
-/
import proofs.«401777_j44530220925731_1_alg».proof.Proof.KernelRun
import proofs.«401777_j44530220925731_1_alg».proof.Proof.Region0
import proofs.«401777_j44530220925731_1_alg».proof.Proof.Region1
import proofs.«401777_j44530220925731_1_alg».proof.Proof.Gather
import proofs.«401777_j44530220925731_1_alg».proof.Proof.HostValues
import proofs.«401777_j44530220925731_1_alg».proof.Proof.RefStages
import proofs.«401777_j44530220925731_1_alg».proof.Proof.Pool

set_option maxRecDepth 16384

noncomputable section

namespace Cert.KernelIdeal.Results

open Cert.KernelIdeal Cert.KernelIdeal.Gen Cert.GraphConv
open Idealize.ShloMosaic Idealize.ShloMosaic.TcCoe Idealize.SL.Sem

variable (m : (ℓ : Loc nD τ sig) → Buf (Elt Ideal) ℓ) (ρ : Dev nD → PrngReg)

/-- The edge region's hidden rows, over the arguments: the reference's. -/
theorem hiddenRows_eq (c : Dev nD) (h : Gather.EdgesInRange (m ((c : Thread nD τ).loc main_arg2))) :
    EdgeRegion.hiddenRows (V5 m ρ) c
      = Cert.ReferenceIdeal.Stages.hidden (m ((c : Thread nD τ).loc main_arg0)) (m ((c : Thread nD τ).loc main_arg1)) (m ((c : Thread nD τ).loc main_arg2)) (m ((c : Thread nD τ).loc main_arg3)) (m ((c : Thread nD τ).loc main_arg4)) := by
  show edgeHidden (V5 m ρ c main_v5) (V5 m ρ c main_arg1) (V5 m ρ c main_v7) (V5 m ρ c main_v10) (V5 m ρ c main_v13)
      (V5 m ρ c main_v16) (V5 m ρ c main_v17) = _
  rw [Gather.subjectRows m ρ c h, Gather.objectRows m ρ c h, HostValues.V5_pred, HostValues.V5_wa, HostValues.V5_wb,
    HostValues.V5_wc, HostValues.V5_b1]

/-- What the kernel program's edges send to their subject nodes is what the reference's send. -/
theorem toSubject_eq (c : Dev nD) (h : Gather.EdgesInRange (m ((c : Thread nD τ).loc main_arg2))) :
    W6 m ρ c (Proc.devRef .tc main_v36_0)
      = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : W6 m ρ c (Proc.devRef .tc main_v36_0) = (dat0 (V5 m ρ) c).arrAt 15 cfg0.N := W6_arr m ρ c 15
  rw [e, EdgeRegion.toSubject_array, Cert.ReferenceIdeal.Stages.toSubject_eq]
  show edgeToNode (EdgeRegion.hiddenRows (V5 m ρ) c) (V5 m ρ c main_v22) (V5 m ρ c main_v28) = _
  rw [hiddenRows_eq m ρ c h, HostValues.V5_w2a, HostValues.V5_b2a]

/-- And to their object nodes. -/
theorem toObject_eq (c : Dev nD) (h : Gather.EdgesInRange (m ((c : Thread nD τ).loc main_arg2))) :
    W6 m ρ c (Proc.devRef .tc main_v36_2)
      = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : W6 m ρ c (Proc.devRef .tc main_v36_2) = (dat0 (V5 m ρ) c).arrAt 17 cfg0.N := W6_arr m ρ c 17
  rw [e, EdgeRegion.toObject_array, Cert.ReferenceIdeal.Stages.toObject_eq]
  show edgeToNode (EdgeRegion.hiddenRows (V5 m ρ) c) (V5 m ρ c main_v26) (V5 m ρ c main_v32) = _
  rw [hiddenRows_eq m ρ c h, HostValues.V5_w2c, HostValues.V5_b2c]

/-- The new edge vectors are the reference's. -/
theorem newEdge_eq (c : Dev nD) (h : Gather.EdgesInRange (m ((c : Thread nD τ).loc main_arg2))) :
    W8 m ρ c (Proc.devRef .tc main_v36_1)
      = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) := by
  rw [HostValues.W8_newEdge, EdgeRegion.newEdge_array, Cert.ReferenceIdeal.Stages.newEdge_eq]
  show edgeToEdge (EdgeRegion.hiddenRows (V5 m ρ) c) (V5 m ρ c main_arg1) (V5 m ρ c main_v24) (V5 m ρ c main_v30)
      (V5 m ρ c main_v34) (V5 m ρ c main_v35) = _
  rw [hiddenRows_eq m ρ c h, HostValues.V5_pred, HostValues.V5_w2b, HostValues.V5_b2b, HostValues.V5_pp, HostValues.V5_pb]

/-- The new node vectors are the reference's. -/
theorem newNode_eq (c : Dev nD) (h : Gather.EdgesInRange (m ((c : Thread nD τ).loc main_arg2))) :
    W8 m ρ c (Proc.devRef .tc main_v66)
      = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e : W8 m ρ c (Proc.devRef .tc main_v66) = (dat1 (V7 m ρ) c).arrAt 8 cfg1.N := W8_arr m ρ c 8
  rw [e, NodeRegion.newNode_array, Cert.ReferenceIdeal.Stages.newNode_eq, Cert.ReferenceIdeal.Pool.val_main_v53_eq]
  show nodeUpdate (V7 m ρ c main_v56) (V7 m ρ c main_arg0) (V7 m ρ c main_v58) (V7 m ρ c main_v59) (V7 m ρ c main_v61)
      (V7 m ρ c main_v62) (V7 m ρ c main_v64) (V7 m ρ c main_v65) = _
  rw [HostValues.V7_pooled, toSubject_eq m ρ c h, toObject_eq m ρ c h, HostValues.V7_obj, HostValues.V7_v1, HostValues.V7_c1,
    HostValues.V7_v2, HostValues.V7_c2, HostValues.V7_po, HostValues.V7_pbo]

end Cert.KernelIdeal.Results

end
-- ==== Proof.lean ====
/-
  A graph-convolution layer: for every edge (subject, predicate, object) a two-layer network of the subject's row,
  the predicate's row and the object's row gives a message to each of the two nodes and a new edge vector (plus a
  projection of the predicate's row); every node averages the messages of its edge ends, and a second two-layer
  network of that average, plus a projection of the node's row, is the new node vector.

  The kernel's program runs the two networks as tiled kernels over blocks of 1000 rows and leaves the row gathers and
  the pooling to the host; the reference runs everything on the host.  On the extended reals they agree once every
  entry of the edge list is a node number (the added conjunct of the precondition; outside it the reference itself
  indexes out of range, and the two programs' gathers treat such an index differently): a change of float format is
  the identity, a matrix product is its sum, the first layer's 1536-term sum is the three 512-term sums the kernel
  adds, the second layer's three row blocks are the three column slices the reference takes, and the pooling is the
  same operations on the same messages.  No law beyond commutativity and associativity of the sums is used, so the
  inputs' finiteness is never opened.

  The three frames are the generated ones (the reference's is its generated run with the results dropped); the
  kernel's idealization rewrote nothing, so `preserves` is `True`.
-/
import proofs.«401777_j44530220925731_1_alg».proof.Defs
import proofs.«401777_j44530220925731_1_alg».proof.Proof.Gen.Kernel
import proofs.«401777_j44530220925731_1_alg».proof.Proof.Gen.Kernel.Skeleton
import proofs.«401777_j44530220925731_1_alg».proof.Proof.Gen.Kernel.Launch
import proofs.«401777_j44530220925731_1_alg».proof.Proof.Gen.Kernel.Points
import proofs.«401777_j44530220925731_1_alg».proof.Proof.Gen.Kernel.Frame
import proofs.«401777_j44530220925731_1_alg».proof.Proof.Gen.KernelIdeal
import proofs.«401777_j44530220925731_1_alg».proof.Proof.Gen.KernelIdeal.Skeleton
import proofs.«401777_j44530220925731_1_alg».proof.Proof.Gen.KernelIdeal.Launch
import proofs.«401777_j44530220925731_1_alg».proof.Proof.Gen.KernelIdeal.Points
import proofs.«401777_j44530220925731_1_alg».proof.Proof.Gen.KernelIdeal.Frame
import proofs.«401777_j44530220925731_1_alg».proof.Proof.Gen.ReferenceIdeal
import proofs.«401777_j44530220925731_1_alg».proof.Proof.Gen.ReferenceIdeal.Run
import proofs.«401777_j44530220925731_1_alg».proof.Proof.Gen.ReferenceIdeal.Read
import proofs.«401777_j44530220925731_1_alg».proof.Proof.Gen.Pre_finite_inputs
import proofs.«401777_j44530220925731_1_alg».proof.Proof.Results
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the edge list in range, both programs end with the same new node
    vectors and the same new edge vectors: the reference's stages of the arguments. -/
theorem algebraic : Cert.algebraic_KernelIdeal_ReferenceIdeal := by
  intro m ρ m' ρ' hpre hagree
  have hin : ∀ c : Dev Cert.KernelIdeal.nD,
      Cert.KernelIdeal.Gather.EdgesInRange (m ((c.tc : Thread Cert.KernelIdeal.nD Cert.KernelIdeal.τ).loc Cert.KernelIdeal.main_arg2)) :=
    fun c => Cert.KernelIdeal.Gather.edgesInRange_of_pre _ _ _ _ _ _ _ _ _ _ _ _ _ _ _ (hpre c)
  refine ⟨fun c => Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Results.newNode_eq m ρ c (hin c)),
        (h c).2.1.trans (Cert.KernelIdeal.Results.newEdge_eq m ρ c (hin c)), (h c).2.2⟩)
      (Cert.KernelIdeal.Results.run_results m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v71_eq]
      obtain ⟨e0, e1, e2, e3, e4, e5, e6, e7, e8, e9, e10, e11, e12, e13, e14⟩ := hagree c
      rw [e0, e1, e2, e3, e4, e5, e6, e7, e8, e9, e10, e11, e12]
    · rw [(h c).2.1, Cert.ReferenceIdeal.Read.val_main_v77_eq]
      obtain ⟨e0, e1, e2, e3, e4, e5, e6, e7, e8, e9, e10, e11, e12, e13, e14⟩ := hagree c
      rw [e0, e1, e2, e3, e4, e5, e6, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
